-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S1x8192 : Shape := ⟨2, ![1, 8192]⟩
abbrev S256x8192 : Shape := ⟨2, ![256, 8192]⟩
abbrev S1x256 : Shape := ⟨2, ![1, 256]⟩
abbrev S256 : Shape := ⟨1, ![256]⟩
abbrev S256x1 : Shape := ⟨2, ![256, 1]⟩
abbrev S8192 : Shape := ⟨1, ![8192]⟩
abbrev S512x512 : Shape := ⟨2, ![512, 512]⟩
abbrev S1x512 : Shape := ⟨2, ![1, 512]⟩

abbrev nBuf : Space → Nat
  | .hbm => 5
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S1x8192, .f32⟩
  | .hbm, ⟨2, _⟩ => ⟨S1x8192, .f32⟩
  | .hbm, ⟨3, _⟩ => ⟨S8192x8192, .f32⟩
  | .hbm, ⟨4, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S1x256, .f32⟩
  | .local _ .vmem, ⟨3, _⟩ => ⟨S1x256, .f32⟩
  | .local _ .vmem, ⟨4, _⟩ => ⟨S1x8192, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S256x8192_S8192 : S256x8192.Reduces [0] S8192
  shapeCasts_S8192_S1x8192 : S8192.ShapeCasts S1x8192
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x512_p1_0_S512x512 : S512x512.Transposes [1, 0] S512x512
  broadcasts_S1x512_S512x512 : S1x512.Broadcasts S512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x8192.size a
  hwx0_1 : ∀ i : grid0.Coords, EltTy.bits .f32 = 32 ∨ (Rect.block (s := S1x8192) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x8192.size a
  hwx1_1 : ∀ i : grid1.Coords, EltTy.bits .f32 = 32 ∨ (Rect.block (s := S8192x8192) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x8192.size a
  hwx1_4 : ∀ i : grid1.Coords, EltTy.bits .f32 = 32 ∨ (Rect.block (s := S8192x8192) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S8192x8192.size a
  hwx1_5 : ∀ i : grid1.Coords, EltTy.bits .f32 = 32 ∨ (Rect.block (s := S8192x8192) S512x512.size (cc1_transform_5 i) (hinb1_5 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192x8192_S8192_d0 : S8192x8192.ReducesTo [0] S8192
  bcast_S_S8192 : S_.BroadcastsInDim S8192 (![] : Fin 0 → Fin S8192.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.K.Dat0.lean ====
/-
  The degree pass (the first kernel region): what its three windows' staging buffers hold after the body at each of
  the 32 row bands, as closed terms over the body's named payloads.

  Band t of the adjacency matrix is rows 256·t … 256·t+255, full width. After the body at band t
  * the input window holds the band it was handed;
  * the out-degree window holds the transposed reciprocals of the band's row sums plus ε (one store, payload 1);
  * the in-degree window holds the running column sums: zeros plus the band's column sums at the first band, the
    previous band's contents plus this band's column sums afterwards, and at the last band the reciprocal of that
    plus ε (payloads 2, 3, 4).
-/
import proofs.«155841_j19774029431556_1_alg».proof.Proof.Gen.Kernel.Launch
import proofs.«155841_j19774029431556_1_alg».proof.Proof.Gen.Kernel.Skeleton
import proofs.«155841_j19774029431556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Row band `t` of the adjacency matrix: 256 rows, full width. -/
abbrev band (c : Dev nD) (t : Fin cfg0.N) : Vec F S256x8192 .f32 := iblk0 V c 0 t

/-- The in-degree window's staging buffer after the body at band `n`: the column sums of bands 0 … n over zeros,
    and at the last band (31) the reciprocal of that sum plus ε. -/
def acc0 (c : Dev nD) : (n : ℕ) → n < cfg0.N → Vec F S1x8192 .f32
  | 0, hn => k0_pay3 (band V c ⟨0, hn⟩) (k0_pay2 (F := F))
  | n + 1, hn =>
    if n + 1 = 31 then k0_pay4 (k0_pay3 (band V c ⟨n + 1, hn⟩) (acc0 c n (Nat.lt_of_succ_lt hn)))
    else k0_pay3 (band V c ⟨n + 1, hn⟩) (acc0 c n (Nat.lt_of_succ_lt hn))

/-- At the first band: zeros plus the band's column sums. -/
theorem acc0_first (c : Dev nD) (t : Fin cfg0.N) (h0 : t.val = 0) :
    acc0 V c t.val t.isLt = k0_pay3 (band V c t) (k0_pay2 (F := F)) := by
  obtain ⟨n, hn⟩ := t
  cases n with
  | zero => rfl
  | succ n => exact absurd h0 (Nat.succ_ne_zero n)

/-- At a middle band: the previous contents plus the band's column sums. -/
theorem acc0_mid (c : Dev nD) (t : Fin cfg0.N) (h0 : t.val ≠ 0) (h31 : t.val ≠ 31) :
    acc0 V c t.val t.isLt = k0_pay3 (band V c t) (acc0 V c (t.val - 1) (Nat.lt_of_le_of_lt (Nat.sub_le _ _) t.isLt)) := by
  obtain ⟨n, hn⟩ := t
  cases n with
  | zero => exact absurd rfl h0
  | succ n => exact (if_neg h31).trans rfl

/-- At the last band: the reciprocal of (the previous contents plus the band's column sums) plus ε. -/
theorem acc0_last (c : Dev nD) (t : Fin cfg0.N) (h31 : t.val = 31) :
    acc0 V c t.val t.isLt = k0_pay4 (k0_pay3 (band V c t) (acc0 V c (t.val - 1) (Nat.lt_of_le_of_lt (Nat.sub_le _ _) t.isLt))) := by
  obtain ⟨n, hn⟩ := t
  cases n with
  | zero => exact absurd h31 (by simp)
  | succ n => exact (if_pos h31).trans rfl

/-- The proof data of the degree pass on core `c`: the arrays as the region finds them (`V`); after the body at band
    `t` the input's buffer at the band, the out-degree buffer at payload 1 of the band, the in-degree buffer at
    `acc0`; the untouched scoped rest and generator register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (band V c t)
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay1 (band V c t) := by dsimp only [dat0]
theorem after0_2 (c : Dev nD) (t : Fin cfg0.N) : (dat0 V c).after 2 t = acc0 V c t.val t.isLt := by dsimp only [dat0]

end Cert.Kernel.Frame

end
-- ==== Proof.K.Dat1.lean ====
/-
  The scaling pass (the second kernel region): what its six windows' staging buffers hold after the body at each of
  the 16 × 16 tiles, as closed terms over the body's named payloads.

  At tile (bi, bj) the body is handed tile (bi, bj) of the adjacency matrix (window 0), tile (bj, bi) of the same
  matrix (window 1: the one array is read through two windows, each holding half of its share), and the column
  slices bj of the two reciprocal-degree rows (windows 2 and 3). It leaves the inputs in place and stores
  * into the forward window the transposed tile (bj, bi) times the out-degree slice broadcast down the rows (payload 1);
  * into the reverse window tile (bi, bj) times the in-degree slice broadcast down the rows (payload 2).
-/
import proofs.«155841_j19774029431556_1_alg».proof.Proof.Gen.Kernel.Launch
import proofs.«155841_j19774029431556_1_alg».proof.Proof.Gen.Kernel.Skeleton
import proofs.«155841_j19774029431556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile (bi, bj) of the matrix, tile (bj, bi) of the matrix, and the two degree slices at column block bj. -/
abbrev tileN (c : Dev nD) (t : Fin cfg1.N) : Vec F S512x512 .f32 := iblk1 V c 0 t
abbrev tileS (c : Dev nD) (t : Fin cfg1.N) : Vec F S512x512 .f32 := iblk1 V c 1 t
abbrev doutS (c : Dev nD) (t : Fin cfg1.N) : Vec F S1x512 .f32 := iblk1 V c 2 t
abbrev dinS (c : Dev nD) (t : Fin cfg1.N) : Vec F S1x512 .f32 := iblk1 V c 3 t

/-- The proof data of the scaling pass on core `c`: the arrays as the region finds them (`V`); after the body at tile
    `t` each input's buffer at its block, the forward buffer at payload 1, the reverse buffer at payload 2; the
    untouched scoped rest and generator register as invariant; nothing owed; the matrix, read through windows 0 and
    1, held half and half, every other input at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (tileS V c t) (doutS V c t)
    | ⟨5, _⟩ => k1_pay2 (tileN V c t) (dinS V c t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (tileS V c t) (doutS V c t) := by dsimp only [dat1]
theorem after1_5 (c : Dev nD) (t : Fin cfg1.N) : (dat1 V c).after 5 t = k1_pay2 (tileN V c t) (dinS V c t) := by dsimp only [dat1]

end Cert.Kernel.Frame

end
-- ==== Proof.K.Fold.lean ====
/-
  The contents of every unscoped buffer of a core at the three boundaries of the program — at launch, after the
  degree pass, after the scaling pass — as a fold from the launch memory: a pass leaves its output arrays at what
  its write-backs made of them (the library's `Dat.arrAt` at the last point) and every other buffer as it found it.
-/
import proofs.«155841_j19774029431556_1_alg».proof.Proof.K.Dat0
import proofs.«155841_j19774029431556_1_alg».proof.Proof.K.Dat1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references: what the degree pass finds. -/
abbrev V1 : (c : Dev nD) → (b : Ref sig .tc) → Buf (Elt F) ((c : Thread nD τ).loc b) := fun c b => W0 m ρ c b

/-- After the degree pass: its arrays at what the pipeline leaves, every other buffer as at launch. -/
def W1 (c : Dev nD) : Valuation τ sig (Elt F) :=
  Pipeline.withArrays spec0 c (W0 m ρ c) fun w => (dat0 (V1 m ρ) c).arrAt w cfg0.N
theorem W1_arr (c : Dev nD) (w : Fin cfg0.W) :
    W1 m ρ c (Proc.devRef .tc (Pipeline.arrRef spec0 w)) = (dat0 (V1 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the scaling pass finds. -/
abbrev V2 : (c : Dev nD) → (b : Ref sig .tc) → Buf (Elt F) ((c : Thread nD τ).loc b) := fun c b => W1 m ρ c b

/-- After the scaling pass: its two output arrays at what the pipeline leaves, every other buffer as it found it. -/
def W2 (c : Dev nD) : Valuation τ sig (Elt F) :=
  Function.update (Function.update (W1 m ρ c) (Proc.devRef .tc main_v1_0) ((dat1 (V2 m ρ) c).arrAt 4 cfg1.N))
    (Proc.devRef .tc main_v1_1) ((dat1 (V2 m ρ) c).arrAt 5 cfg1.N)
/-- The same read at the TensorCore's references. -/
abbrev V3 : (c : Dev nD) → (b : Ref sig .tc) → Buf (Elt F) ((c : Thread nD τ).loc b) := fun c b => W2 m ρ c b

theorem W2_main_v1_1 (c : Dev nD) : W2 m ρ c (Proc.devRef .tc main_v1_1) = (dat1 (V2 m ρ) c).arrAt 5 cfg1.N := by
  unfold W2; exact Function.update_self _ _ _
theorem W2_main_v1_0 (c : Dev nD) : W2 m ρ c (Proc.devRef .tc main_v1_0) = (dat1 (V2 m ρ) c).arrAt 4 cfg1.N := by
  unfold W2
  rw [Function.update_of_ne (StableHlo.devRef_ne_of_ne (by decide) : (Proc.devRef .tc main_v1_0 : DevRef τ sig) ≠ Proc.devRef .tc main_v1_1)]
  exact Function.update_self _ _ _
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-- The matrix ends as launched: no pass writes it (both read it through input windows). -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide) (by decide)
    _ = W0 m ρ c (Proc.devRef .tc main_arg0) := (W1_arr m ρ c 0).trans (((dat0 (V1 m ρ) c).arrAt_in 0 rfl _).trans (A_eq0 (V1 m ρ) c 0))
    _ = m ((c : Thread nD τ).loc main_arg0) := rfl

/-- What the scaling pass finds in the matrix, the out-degree row and the in-degree row. -/
theorem V2_main_arg0 (c : Dev nD) : V2 m ρ c main_arg0 = m ((c : Thread nD τ).loc main_arg0) :=
  (W1_arr m ρ c 0).trans (((dat0 (V1 m ρ) c).arrAt_in 0 rfl _).trans (A_eq0 (V1 m ρ) c 0))
theorem V2_main_v0_0 (c : Dev nD) : V2 m ρ c main_v0_0 = (dat0 (V1 m ρ) c).arrAt 1 cfg0.N := W1_arr m ρ c 1
theorem V2_main_v0_1 (c : Dev nD) : V2 m ρ c main_v0_1 = (dat0 (V1 m ρ) c).arrAt 2 cfg0.N := W1_arr m ρ c 2

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

end Cert.Kernel.Frame

end
-- ==== Proof.K.Body0.lean ====
/- The degree pass's body obligation.

   The degree pass walks the adjacency matrix in 32 row bands of 256 rows. At every band it stores the transposed
   reciprocals of the band's row sums plus ε in the out-degree window's buffer, and adds the band's column sums to
   the in-degree window's buffer: that buffer is zeroed first at the first band, and at the last band its contents
   are replaced by the reciprocal of the finished sums plus ε. So the body has three control cases (first band,
   a middle band, last band); each is run once over arbitrary whole staging buffers, and the obligation at a band
   is the case the band's number selects, the in-degree buffer holding what the band before left. -/
import proofs.«155841_j19774029431556_1_alg».proof.Proof.K.Dat0
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two tests on the band number -/

/-- The first conditional's test, from the grid coordinate: is this the first band? -/
abbrev cond0_0 (i : grid0.Coords) : Prop :=
  (Scalar.cmpi .ne (Scalar.extui (Scalar.cmpi .eq (BitVec.ofNat 32 (i 0).val) 0#32)) 0#32) = 1#1
/-- It holds at band 0 only: decided over the 32 bands. -/
theorem hcond0_0 : ∀ t : Fin cfg0.N, cond0_0 (grid0.coords t) ↔ t.val = 0 :=
  (by decide +kernel : ∀ t : Fin grid0.N, cond0_0 (grid0.coords t) ↔ t.val = 0)
/-- The second conditional's test: is this the last band? -/
abbrev cond0_1 (i : grid0.Coords) : Prop :=
  (Scalar.cmpi .ne (Scalar.extui (Scalar.cmpi .eq (BitVec.ofNat 32 (i 0).val) 31#32)) 0#32) = 1#1
/-- It holds at band 31 only. -/
theorem hcond0_1 : ∀ t : Fin cfg0.N, cond0_1 (grid0.coords t) ↔ t.val = 31 :=
  (by decide +kernel : ∀ t : Fin grid0.N, cond0_1 (grid0.coords t) ↔ t.val = 31)

/-! ## Whole-buffer accesses

Every load and store of the body is through the rectangle that is its whole buffer, at zero offsets: a load reads
the contents, and a list of stores whose last is such a store covers the buffer and leaves that store's payload. -/

/-- The zero offsets of a whole-buffer access, as the constant function. -/
theorem hz2 : (![0, 0] : Fin 2 → Nat) = fun _ => 0 := by
  funext a; fin_cases a <;> rfl

/-- A list of stores whose last is through the whole-buffer rectangle at zero offsets covers the buffer. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-! ## The body's three control cases, on any whole staging buffers -/

set_option maxHeartbeats 1000000 in
/-- FIRST BAND. The band's buffer at `x0`, the two output buffers at anything: the body leaves the band in place,
    the out-degree buffer at the transposed reciprocal row sums of `x0`, and the in-degree buffer at zeros plus the
    column sums of `x0` (the zero store is read back by the accumulation's load). -/
theorem sound_kernel0_first (c : Dev nD) (E : Set ℕ) (i : grid0.Coords) (hi0 : cond0_0 i) (hi31 : ¬ cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (k0_pay1 x0)
            ∗ owns (c : Thread nD τ) arg3 fullShare (k0_pay3 x0 (k0_pay2 (F := F)))) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.readCov_unit_zero (S := S1x8192) _ hz2]

set_option maxHeartbeats 1000000 in
/-- A MIDDLE BAND. The in-degree buffer holds the running sums `a`: the body leaves it at `a` plus the column sums
    of `x0`; neither conditional runs. -/
theorem sound_kernel0_mid (c : Dev nD) (E : Set ℕ) (i : grid0.Coords) (hi0 : ¬ cond0_0 i) (hi31 : ¬ cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (a : Vec F S1x8192 .f32) (K : PUnit → sProp 𝕄) :
    iprop(owns (c : Thread nD τ) arg1 fullShare x0 ∗ (∃ d, owns (c : Thread nD τ) arg2 fullShare d)
        ∗ owns (c : Thread nD τ) arg3 fullShare a
        ∗ (iprop(owns (c : Thread nD τ) arg1 fullShare x0 ∗ owns (c : Thread nD τ) arg2 fullShare (k0_pay1 x0)
            ∗ owns (c : Thread nD τ) arg3 fullShare (k0_pay3 x0 a)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.ld_unit_zero (S := S1x8192) hz2]

set_option maxHeartbeats 1000000 in
/-- LAST BAND. The in-degree buffer holds the running sums `a`: the body adds the column sums of `x0`, reads the
    result back and leaves the reciprocal of it plus ε. -/
theorem sound_kernel0_last (c : Dev nD) (E : Set ℕ) (i : grid0.Coords) (hi0 : ¬ cond0_0 i) (hi31 : cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (a : Vec F S1x8192 .f32) (K : PUnit → sProp 𝕄) :
    iprop(owns (c : Thread nD τ) arg1 fullShare x0 ∗ (∃ d, owns (c : Thread nD τ) arg2 fullShare d)
        ∗ owns (c : Thread nD τ) arg3 fullShare a
        ∗ (iprop(owns (c : Thread nD τ) arg1 fullShare x0 ∗ owns (c : Thread nD τ) arg2 fullShare (k0_pay1 x0)
            ∗ owns (c : Thread nD τ) arg3 fullShare (k0_pay4 (k0_pay3 x0 a))) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.ld_unit_zero (S := S1x8192) hz2,
    View.readCov_unit_zero (S := S1x8192) _ hz2]

/-! ## What the staging buffers hold when the body is called -/

/-- The input window's current staging buffer holds the band at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- After the first band the in-degree window's staging buffer holds what the band before left: it is written
    back at the last band only, so no band that has a successor writes it back. -/
theorem before0_2_kept (c : Dev nD) (t : Fin cfg0.N) (h0 : t.val ≠ 0) (d) :
    (dat0 V c).before 2 t d = acc0 V c (t.val - 1) (Nat.lt_of_le_of_lt (Nat.sub_le _ _) t.isLt) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation at a band -/

/-- What the body is called with at band `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any band: the input's buffer holds the band; the band's number says which of the three control
    cases runs; after the first band the in-degree buffer holds the running column sums the band before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · have h31 : t.val ≠ 31 := by omega
    rw [acc0_first V c t h0]
    iintro ⟨HΦ, Ho, ⟨%d0, H0⟩, ⟨%d1, H1⟩, ⟨%d2, H2⟩⟩
    iapply (sound_kernel0_first c Set.univ (grid0.coords t) ((hcond0_0 t).mpr h0) (fun h => h31 ((hcond0_1 t).mp h))
      _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_kept V c t h0]
    by_cases h31 : t.val = 31
    · rw [acc0_last V c t h31]
      iintro ⟨HΦ, Ho, ⟨%d0, H0⟩, ⟨%d1, H1⟩, ⟨%d2, H2⟩⟩
      iapply (sound_kernel0_last c Set.univ (grid0.coords t) (fun h => h0 ((hcond0_0 t).mp h)) ((hcond0_1 t).mpr h31)
        _ _ _ _ _ _ (iblk0 V c 0 t) (acc0 V c (t.val - 1) (Nat.lt_of_le_of_lt (Nat.sub_le _ _) t.isLt)) _)
      isplitl [H0]; · iexact H0
      isplitl [H1]; · iexists _; iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [acc0_mid V c t h0 h31]
      iintro ⟨HΦ, Ho, ⟨%d0, H0⟩, ⟨%d1, H1⟩, ⟨%d2, H2⟩⟩
      iapply (sound_kernel0_mid c Set.univ (grid0.coords t) (fun h => h0 ((hcond0_0 t).mp h)) (fun h => h31 ((hcond0_1 t).mp h))
        _ _ _ _ _ _ (iblk0 V c 0 t) (acc0 V c (t.val - 1) (Nat.lt_of_le_of_lt (Nat.sub_le _ _) t.isLt)) _)
      isplitl [H0]; · iexact H0
      isplitl [H1]; · iexists _; iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation of the degree pass, at every band. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Body1.lean ====
/- The scaling pass's body obligation. -/
import proofs.«155841_j19774029431556_1_alg».proof.Proof.K.Dat1
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

/-- The offsets of an access through a whole buffer are zero on both axes. -/
private theorem zero_off : (![0, 0] : Fin 2 → Nat) = fun _ => 0 := funext fun a => by fin_cases a <;> rfl

/-- One store through the whole 512 × 512 buffer covers it. -/
private theorem cover_whole (p : Vec F S512x512 .f32) (y : S512x512.Idx) :
    ∃ pc ∈ ([⟨Rect.unit (s := S512x512) ![0, 0] S512x512.size inb_S512x512_S512x512_0_0, p⟩] :
      List (View.Piece (Elt F) S512x512 .f32)), y ∈ pc.1.set :=
  ⟨_, List.mem_singleton_self _, View.mem_set_unit_zero zero_off inb_S512x512_S512x512_0_0 y⟩

set_option maxHeartbeats 1000000 in
/-- The scaling body on whole staging memrefs: the four inputs' at read contents `x0 … x3`, the two outputs' at
    anything (each is loaded once, the value unused, before it is stored into). It runs to the continuation holding
    the inputs' as they were, the forward output's at payload 1 of `x1` and `x2` and the reverse output's at
    payload 2 of `x0` and `x3`: every load and every store is through the whole buffer, so a load reads the
    contents and the one store into an output leaves its payload. -/
theorem sound_kernel1 (c : Dev nD) (E : Set ℕ) (i : grid1.Coords)
    (arg2 : Memref sig .tc .vmem S512x512 .f32) (harg2 : arg2.IsWhole)
    (arg3 : Memref sig .tc .vmem S512x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S512x512 .f32) (harg6 : arg6.IsWhole)
    (arg7 : Memref sig .tc .vmem S512x512 .f32) (harg7 : arg7.IsWhole)
    (x0 x1 : Vec F S512x512 .f32) (x2 x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay1 x1 x2)
            ∗ owns (c : Thread nD τ) arg7 fullShare (k1_pay2 x0 x3)) -∗ K ⟨⟩))
      ⊢ wp frame (wpE (defs₀ (F := F)) Variants.none c none) E
          (cc1__scale_kernel i arg2 harg2 arg3 harg3 arg4 harg4 arg5 harg5 arg6 harg6 arg7 harg7) K := by
  simp only [cc1__scale_kernel_eq_skeleton]; unfold cc1__scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_whole _), View.canon_unit_zero zero_off]
    simp only [View.readAt_eq_ld, View.ld_unit_zero (S := S512x512) zero_off, View.ld_unit_zero (S := S1x512) zero_off]
  iexists _; isplitr
  swap; · iexact H5
  ipureintro
  rw [View.read_writes_eq_canon _ _ _ (cover_whole _), View.canon_unit_zero zero_off]
  simp only [View.readAt_eq_ld, View.ld_unit_zero (S := S512x512) zero_off, View.ld_unit_zero (S := S1x512) zero_off]

/-! ## What the inputs' buffers hold when the body is called -/

/-- Each input's current staging buffer holds its block at every tile (every input is fetched at every tile; the
    windows are uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic tile -/

/-- What the body is called with at tile `t` (the library's precondition, the six windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' memrefs hold their blocks (`before1_W`), the outputs' hold something, so
    `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of the scaling pass, at every tile. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Entry1.lean ====
/- The scaling pass's arrays out of, and back into, a core's unscoped buffers: the matrix's buffer is read through two windows. -/
import proofs.«155841_j19774029431556_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's unscoped buffers, one by one. -/
theorem unscopedBufs_chain (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1_0) ↦{fullShare} V main_v1_0)
          ∗ (((c : Thread nD τ).loc main_v1_1) ↦{fullShare} V main_v1_1)) := by
  unfold unscopedBufs
  exact bigSep_eq_bigSepL_of_eq [main_arg0, main_v0_0, main_v0_1, main_v1_0, main_v1_1] (by decide) (by decide) _

/-- The scaling pass's arrays, window by window: the matrix's buffer twice, at the two halves of its share. -/
theorem arrays1_chain (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)
          ∗ (((c : Thread nD τ).loc main_v1_0) ↦{fullShare} G 4) ∗ (((c : Thread nD τ).loc main_v1_1) ↦{fullShare} G 5)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ]
  rfl

/-- ENTRY: a core's unscoped buffers at the contents the degree pass left are the scaling pass's arrays at its entry contents. -/
theorem arrays1_entry (c : Dev nD) :
    (unscopedBufs (Ix := Unit) (Name := ℕ) (U := UR sig nD τ) (Lvl := ℕ) c (V2 m ρ c) : sProp 𝕄)
      ⊢ (dat1 (V2 m ρ) c).arrays ((dat1 (V2 m ρ) c).arrAt · 0) := by
  rw [unscopedBufs_chain, arrays1_chain]
  iintro ⟨HA, H0, H1, H2, H3⟩
  -- the matrix's buffer, whole, is its two halves: one per window on it
  ihave HA := (pointsTo_share (PosShare.mem_left_op_right fullShare)).1 $$ HA
  icases HA with ⟨HA₁, HA₂⟩
  isplitl [HA₁]; · iexact HA₁
  isplitl [HA₂]; · iexact HA₂
  isplitl [H0]; · iexact H0
  isplitl [H1]; · iexact H1
  isplitl [H2]; · iexact H2
  iexact H3

/-- EXIT: the scaling pass's arrays at their final contents are the core's unscoped buffers at the next boundary's contents. -/
theorem arrays1_exit (c : Dev nD) :
    (dat1 (V2 m ρ) c).arrays ((dat1 (V2 m ρ) c).arrAt · cfg1.N)
      ⊢ (unscopedBufs (Ix := Unit) (Name := ℕ) (U := UR sig nD τ) (Lvl := ℕ) c (V3 m ρ c) : sProp 𝕄) := by
  rw [unscopedBufs_chain, arrays1_chain]
  -- an input window's array is never written; the boundary's contents agree with the entry's off the two outputs
  have e0 : (dat1 (V2 m ρ) c).arrAt 0 cfg1.N = V3 m ρ c main_arg0 :=
    ((dat1 (V2 m ρ) c).arrAt_in 0 rfl _).trans (W2_of_ne m ρ c main_arg0 (by decide) (by decide)).symm
  have e1 : (dat1 (V2 m ρ) c).arrAt 1 cfg1.N = V3 m ρ c main_arg0 :=
    ((dat1 (V2 m ρ) c).arrAt_in 1 rfl _).trans (W2_of_ne m ρ c main_arg0 (by decide) (by decide)).symm
  have e2 : (dat1 (V2 m ρ) c).arrAt 2 cfg1.N = V3 m ρ c main_v0_0 :=
    ((dat1 (V2 m ρ) c).arrAt_in 2 rfl _).trans (W2_of_ne m ρ c main_v0_0 (by decide) (by decide)).symm
  have e3 : (dat1 (V2 m ρ) c).arrAt 3 cfg1.N = V3 m ρ c main_v0_1 :=
    ((dat1 (V2 m ρ) c).arrAt_in 3 rfl _).trans (W2_of_ne m ρ c main_v0_1 (by decide) (by decide)).symm
  have e4 : (dat1 (V2 m ρ) c).arrAt 4 cfg1.N = V3 m ρ c main_v1_0 := (W2_main_v1_0 m ρ c).symm
  have e5 : (dat1 (V2 m ρ) c).arrAt 5 cfg1.N = V3 m ρ c main_v1_1 := (W2_main_v1_1 m ρ c).symm
  rw [e0, e1, e2, e3, e4, e5]
  iintro ⟨HA₁, HA₂, H0, H1, H2, H3⟩
  -- the two halves of the matrix's buffer, at the same contents, are the buffer whole
  isplitl [HA₁ HA₂]
  · iapply (pointsTo_share (PosShare.mem_left_op_right fullShare)).2
    isplitl [HA₁]; · iexact HA₁
    iexact HA₂
  isplitl [H0]; · iexact H0
  isplitl [H1]; · iexact H1
  isplitl [H2]; · iexact H2
  iexact H3

end Cert.Kernel.Frame

end
-- ==== Proof.K.MainRun.lean ====
/-
  The run of the whole program: @main is the degree pass followed by the scaling pass. Each pass is a segment entered
  from "every unscoped buffer of the core at the boundary's contents" and left at the next boundary's contents
  (the fold of Fold.lean); the launch theorem for a list of segments then says every weakly fair execution
  terminates, nothing faulting, with every unscoped buffer at the last boundary's contents.
-/
import proofs.«155841_j19774029431556_1_alg».proof.Proof.K.Fold
import proofs.«155841_j19774029431556_1_alg».proof.Proof.K.Body0
import proofs.«155841_j19774029431556_1_alg».proof.Proof.K.Body1
import proofs.«155841_j19774029431556_1_alg».proof.Proof.K.Entry1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)

/-- At the degree pass's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W1_arr m ρ c w).symm
theorem hrest0 (c : Dev nD) : ∀ b, b ∉ Finset.univ.image (Pipeline.arrRef spec0) → V2 m ρ c b = V1 m ρ c b :=
  fun b hb => W1_of_ne m ρ c b fun w e => hb (Finset.mem_image.mpr ⟨w, Finset.mem_univ _, e⟩)

set_option backward.isDefEq.respectTransparency.types false in
/-- THE DEGREE PASS over the thread state: entered from every unscoped buffer at the launch contents, left at
    `W1`. Its arrays split out of the unscoped buffers and put back at the exit contents; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING PASS over the thread state: entered from every unscoped buffer at `W1`, left at `W2`. All of the
    core's unscoped buffers are arrays of this pass, the matrix's read through two windows (Entry1.lean); nothing
    bypasses it. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays1_entry m ρ c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m ρ c
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-- @main's two segments in order. -/
abbrev segs : List (Pipeline.Seg (pcfgs (F := F)) adm (pdats m ρ) () defs₀ 𝒱₀ L lv) :=
  [ .region (reg0 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer of every core at the last boundary's contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the matrix ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W2_main_arg0 m ρ c)) (run_main m ρ)

end Cert.Kernel.Frame

end
-- ==== Proof.KI.Dat0.lean ====
/-
  The degree pass (the first kernel region): what its three windows' staging buffers hold after the body at each of
  the 32 row bands, as closed terms over the body's named payloads.

  Band t of the adjacency matrix is rows 256·t … 256·t+255, full width. After the body at band t
  * the input window holds the band it was handed;
  * the out-degree window holds the transposed reciprocals of the band's row sums plus ε (one store, payload 1);
  * the in-degree window holds the running column sums: zeros plus the band's column sums at the first band, the
    previous band's contents plus this band's column sums afterwards, and at the last band the reciprocal of that
    plus ε (payloads 2, 3, 4).
-/
import proofs.«155841_j19774029431556_1_alg».proof.Proof.Gen.KernelIdeal.Launch
import proofs.«155841_j19774029431556_1_alg».proof.Proof.Gen.KernelIdeal.Skeleton
import proofs.«155841_j19774029431556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Row band `t` of the adjacency matrix: 256 rows, full width. -/
abbrev band (c : Dev nD) (t : Fin cfg0.N) : Vec F S256x8192 .f32 := iblk0 V c 0 t

/-- The in-degree window's staging buffer after the body at band `n`: the column sums of bands 0 … n over zeros,
    and at the last band (31) the reciprocal of that sum plus ε. -/
def acc0 (c : Dev nD) : (n : ℕ) → n < cfg0.N → Vec F S1x8192 .f32
  | 0, hn => k0_pay3 (band V c ⟨0, hn⟩) (k0_pay2 (F := F))
  | n + 1, hn =>
    if n + 1 = 31 then k0_pay4 (k0_pay3 (band V c ⟨n + 1, hn⟩) (acc0 c n (Nat.lt_of_succ_lt hn)))
    else k0_pay3 (band V c ⟨n + 1, hn⟩) (acc0 c n (Nat.lt_of_succ_lt hn))

/-- At the first band: zeros plus the band's column sums. -/
theorem acc0_first (c : Dev nD) (t : Fin cfg0.N) (h0 : t.val = 0) :
    acc0 V c t.val t.isLt = k0_pay3 (band V c t) (k0_pay2 (F := F)) := by
  obtain ⟨n, hn⟩ := t
  cases n with
  | zero => rfl
  | succ n => exact absurd h0 (Nat.succ_ne_zero n)

/-- At a middle band: the previous contents plus the band's column sums. -/
theorem acc0_mid (c : Dev nD) (t : Fin cfg0.N) (h0 : t.val ≠ 0) (h31 : t.val ≠ 31) :
    acc0 V c t.val t.isLt = k0_pay3 (band V c t) (acc0 V c (t.val - 1) (Nat.lt_of_le_of_lt (Nat.sub_le _ _) t.isLt)) := by
  obtain ⟨n, hn⟩ := t
  cases n with
  | zero => exact absurd rfl h0
  | succ n => exact (if_neg h31).trans rfl

/-- At the last band: the reciprocal of (the previous contents plus the band's column sums) plus ε. -/
theorem acc0_last (c : Dev nD) (t : Fin cfg0.N) (h31 : t.val = 31) :
    acc0 V c t.val t.isLt = k0_pay4 (k0_pay3 (band V c t) (acc0 V c (t.val - 1) (Nat.lt_of_le_of_lt (Nat.sub_le _ _) t.isLt))) := by
  obtain ⟨n, hn⟩ := t
  cases n with
  | zero => exact absurd h31 (by simp)
  | succ n => exact (if_pos h31).trans rfl

/-- The proof data of the degree pass on core `c`: the arrays as the region finds them (`V`); after the body at band
    `t` the input's buffer at the band, the out-degree buffer at payload 1 of the band, the in-degree buffer at
    `acc0`; the untouched scoped rest and generator register as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (band V c t)
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay1 (band V c t) := by dsimp only [dat0]
theorem after0_2 (c : Dev nD) (t : Fin cfg0.N) : (dat0 V c).after 2 t = acc0 V c t.val t.isLt := by dsimp only [dat0]

end Cert.KernelIdeal.Frame

end
-- ==== Proof.KI.Dat1.lean ====
/-
  The scaling pass (the second kernel region): what its six windows' staging buffers hold after the body at each of
  the 16 × 16 tiles, as closed terms over the body's named payloads.

  At tile (bi, bj) the body is handed tile (bi, bj) of the adjacency matrix (window 0), tile (bj, bi) of the same
  matrix (window 1: the one array is read through two windows, each holding half of its share), and the column
  slices bj of the two reciprocal-degree rows (windows 2 and 3). It leaves the inputs in place and stores
  * into the forward window the transposed tile (bj, bi) times the out-degree slice broadcast down the rows (payload 1);
  * into the reverse window tile (bi, bj) times the in-degree slice broadcast down the rows (payload 2).
-/
import proofs.«155841_j19774029431556_1_alg».proof.Proof.Gen.KernelIdeal.Launch
import proofs.«155841_j19774029431556_1_alg».proof.Proof.Gen.KernelIdeal.Skeleton
import proofs.«155841_j19774029431556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile (bi, bj) of the matrix, tile (bj, bi) of the matrix, and the two degree slices at column block bj. -/
abbrev tileN (c : Dev nD) (t : Fin cfg1.N) : Vec F S512x512 .f32 := iblk1 V c 0 t
abbrev tileS (c : Dev nD) (t : Fin cfg1.N) : Vec F S512x512 .f32 := iblk1 V c 1 t
abbrev doutS (c : Dev nD) (t : Fin cfg1.N) : Vec F S1x512 .f32 := iblk1 V c 2 t
abbrev dinS (c : Dev nD) (t : Fin cfg1.N) : Vec F S1x512 .f32 := iblk1 V c 3 t

/-- The proof data of the scaling pass on core `c`: the arrays as the region finds them (`V`); after the body at tile
    `t` each input's buffer at its block, the forward buffer at payload 1, the reverse buffer at payload 2; the
    untouched scoped rest and generator register as invariant; nothing owed; the matrix, read through windows 0 and
    1, held half and half, every other input at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (tileS V c t) (doutS V c t)
    | ⟨5, _⟩ => k1_pay2 (tileN V c t) (dinS V c t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (tileS V c t) (doutS V c t) := by dsimp only [dat1]
theorem after1_5 (c : Dev nD) (t : Fin cfg1.N) : (dat1 V c).after 5 t = k1_pay2 (tileN V c t) (dinS V c t) := by dsimp only [dat1]

end Cert.KernelIdeal.Frame

end
-- ==== Proof.KI.Fold.lean ====
/-
  The contents of every unscoped buffer of a core at the three boundaries of the program — at launch, after the
  degree pass, after the scaling pass — as a fold from the launch memory: a pass leaves its output arrays at what
  its write-backs made of them (the library's `Dat.arrAt` at the last point) and every other buffer as it found it.
-/
import proofs.«155841_j19774029431556_1_alg».proof.Proof.KI.Dat0
import proofs.«155841_j19774029431556_1_alg».proof.Proof.KI.Dat1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references: what the degree pass finds. -/
abbrev V1 : (c : Dev nD) → (b : Ref sig .tc) → Buf (Elt F) ((c : Thread nD τ).loc b) := fun c b => W0 m ρ c b

/-- After the degree pass: its arrays at what the pipeline leaves, every other buffer as at launch. -/
def W1 (c : Dev nD) : Valuation τ sig (Elt F) :=
  Pipeline.withArrays spec0 c (W0 m ρ c) fun w => (dat0 (V1 m ρ) c).arrAt w cfg0.N
theorem W1_arr (c : Dev nD) (w : Fin cfg0.W) :
    W1 m ρ c (Proc.devRef .tc (Pipeline.arrRef spec0 w)) = (dat0 (V1 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the scaling pass finds. -/
abbrev V2 : (c : Dev nD) → (b : Ref sig .tc) → Buf (Elt F) ((c : Thread nD τ).loc b) := fun c b => W1 m ρ c b

/-- After the scaling pass: its two output arrays at what the pipeline leaves, every other buffer as it found it. -/
def W2 (c : Dev nD) : Valuation τ sig (Elt F) :=
  Function.update (Function.update (W1 m ρ c) (Proc.devRef .tc main_v1_0) ((dat1 (V2 m ρ) c).arrAt 4 cfg1.N))
    (Proc.devRef .tc main_v1_1) ((dat1 (V2 m ρ) c).arrAt 5 cfg1.N)
/-- The same read at the TensorCore's references. -/
abbrev V3 : (c : Dev nD) → (b : Ref sig .tc) → Buf (Elt F) ((c : Thread nD τ).loc b) := fun c b => W2 m ρ c b

theorem W2_main_v1_1 (c : Dev nD) : W2 m ρ c (Proc.devRef .tc main_v1_1) = (dat1 (V2 m ρ) c).arrAt 5 cfg1.N := by
  unfold W2; exact Function.update_self _ _ _
theorem W2_main_v1_0 (c : Dev nD) : W2 m ρ c (Proc.devRef .tc main_v1_0) = (dat1 (V2 m ρ) c).arrAt 4 cfg1.N := by
  unfold W2
  rw [Function.update_of_ne (StableHlo.devRef_ne_of_ne (by decide) : (Proc.devRef .tc main_v1_0 : DevRef τ sig) ≠ Proc.devRef .tc main_v1_1)]
  exact Function.update_self _ _ _
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-- The matrix ends as launched: no pass writes it (both read it through input windows). -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide) (by decide)
    _ = W0 m ρ c (Proc.devRef .tc main_arg0) := (W1_arr m ρ c 0).trans (((dat0 (V1 m ρ) c).arrAt_in 0 rfl _).trans (A_eq0 (V1 m ρ) c 0))
    _ = m ((c : Thread nD τ).loc main_arg0) := rfl

/-- What the scaling pass finds in the matrix, the out-degree row and the in-degree row. -/
theorem V2_main_arg0 (c : Dev nD) : V2 m ρ c main_arg0 = m ((c : Thread nD τ).loc main_arg0) :=
  (W1_arr m ρ c 0).trans (((dat0 (V1 m ρ) c).arrAt_in 0 rfl _).trans (A_eq0 (V1 m ρ) c 0))
theorem V2_main_v0_0 (c : Dev nD) : V2 m ρ c main_v0_0 = (dat0 (V1 m ρ) c).arrAt 1 cfg0.N := W1_arr m ρ c 1
theorem V2_main_v0_1 (c : Dev nD) : V2 m ρ c main_v0_1 = (dat0 (V1 m ρ) c).arrAt 2 cfg0.N := W1_arr m ρ c 2

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

end Cert.KernelIdeal.Frame

end
-- ==== Proof.KI.Body0.lean ====
/- The degree pass's body obligation.

   The degree pass walks the adjacency matrix in 32 row bands of 256 rows. At every band it stores the transposed
   reciprocals of the band's row sums plus ε in the out-degree window's buffer, and adds the band's column sums to
   the in-degree window's buffer: that buffer is zeroed first at the first band, and at the last band its contents
   are replaced by the reciprocal of the finished sums plus ε. So the body has three control cases (first band,
   a middle band, last band); each is run once over arbitrary whole staging buffers, and the obligation at a band
   is the case the band's number selects, the in-degree buffer holding what the band before left. -/
import proofs.«155841_j19774029431556_1_alg».proof.Proof.KI.Dat0
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two tests on the band number -/

/-- The first conditional's test, from the grid coordinate: is this the first band? -/
abbrev cond0_0 (i : grid0.Coords) : Prop :=
  (Scalar.cmpi .ne (Scalar.extui (Scalar.cmpi .eq (BitVec.ofNat 32 (i 0).val) 0#32)) 0#32) = 1#1
/-- It holds at band 0 only: decided over the 32 bands. -/
theorem hcond0_0 : ∀ t : Fin cfg0.N, cond0_0 (grid0.coords t) ↔ t.val = 0 :=
  (by decide +kernel : ∀ t : Fin grid0.N, cond0_0 (grid0.coords t) ↔ t.val = 0)
/-- The second conditional's test: is this the last band? -/
abbrev cond0_1 (i : grid0.Coords) : Prop :=
  (Scalar.cmpi .ne (Scalar.extui (Scalar.cmpi .eq (BitVec.ofNat 32 (i 0).val) 31#32)) 0#32) = 1#1
/-- It holds at band 31 only. -/
theorem hcond0_1 : ∀ t : Fin cfg0.N, cond0_1 (grid0.coords t) ↔ t.val = 31 :=
  (by decide +kernel : ∀ t : Fin grid0.N, cond0_1 (grid0.coords t) ↔ t.val = 31)

/-! ## Whole-buffer accesses

Every load and store of the body is through the rectangle that is its whole buffer, at zero offsets: a load reads
the contents, and a list of stores whose last is such a store covers the buffer and leaves that store's payload. -/

/-- The zero offsets of a whole-buffer access, as the constant function. -/
theorem hz2 : (![0, 0] : Fin 2 → Nat) = fun _ => 0 := by
  funext a; fin_cases a <;> rfl

/-- A list of stores whose last is through the whole-buffer rectangle at zero offsets covers the buffer. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-! ## The body's three control cases, on any whole staging buffers -/

set_option maxHeartbeats 1000000 in
/-- FIRST BAND. The band's buffer at `x0`, the two output buffers at anything: the body leaves the band in place,
    the out-degree buffer at the transposed reciprocal row sums of `x0`, and the in-degree buffer at zeros plus the
    column sums of `x0` (the zero store is read back by the accumulation's load). -/
theorem sound_kernel0_first (c : Dev nD) (E : Set ℕ) (i : grid0.Coords) (hi0 : cond0_0 i) (hi31 : ¬ cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (k0_pay1 x0)
            ∗ owns (c : Thread nD τ) arg3 fullShare (k0_pay3 x0 (k0_pay2 (F := F)))) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%d2, %f2, -, H2⟩, Hk⟩
  subst hf0
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.readCov_unit_zero (S := S1x8192) _ hz2]

set_option maxHeartbeats 1000000 in
/-- A MIDDLE BAND. The in-degree buffer holds the running sums `a`: the body leaves it at `a` plus the column sums
    of `x0`; neither conditional runs. -/
theorem sound_kernel0_mid (c : Dev nD) (E : Set ℕ) (i : grid0.Coords) (hi0 : ¬ cond0_0 i) (hi31 : ¬ cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (a : Vec F S1x8192 .f32) (K : PUnit → sProp 𝕄) :
    iprop(owns (c : Thread nD τ) arg1 fullShare x0 ∗ (∃ d, owns (c : Thread nD τ) arg2 fullShare d)
        ∗ owns (c : Thread nD τ) arg3 fullShare a
        ∗ (iprop(owns (c : Thread nD τ) arg1 fullShare x0 ∗ owns (c : Thread nD τ) arg2 fullShare (k0_pay1 x0)
            ∗ owns (c : Thread nD τ) arg3 fullShare (k0_pay3 x0 a)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.ld_unit_zero (S := S1x8192) hz2]

set_option maxHeartbeats 1000000 in
/-- LAST BAND. The in-degree buffer holds the running sums `a`: the body adds the column sums of `x0`, reads the
    result back and leaves the reciprocal of it plus ε. -/
theorem sound_kernel0_last (c : Dev nD) (E : Set ℕ) (i : grid0.Coords) (hi0 : ¬ cond0_0 i) (hi31 : cond0_1 i)
    (arg1 : Memref sig .tc .vmem S256x8192 .f32) (harg1 : arg1.IsWhole)
    (arg2 : Memref sig .tc .vmem S1x256 .f32) (harg2 : arg2.IsWhole)
    (arg3 : Memref sig .tc .vmem S1x8192 .f32) (harg3 : arg3.IsWhole)
    (x0 : Vec F S256x8192 .f32) (a : Vec F S1x8192 .f32) (K : PUnit → sProp 𝕄) :
    iprop(owns (c : Thread nD τ) arg1 fullShare x0 ∗ (∃ d, owns (c : Thread nD τ) arg2 fullShare d)
        ∗ owns (c : Thread nD τ) arg3 fullShare a
        ∗ (iprop(owns (c : Thread nD τ) arg1 fullShare x0 ∗ owns (c : Thread nD τ) arg2 fullShare (k0_pay1 x0)
            ∗ owns (c : Thread nD τ) arg3 fullShare (k0_pay4 (k0_pay3 x0 a))) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f0, %hf0, H0⟩, ⟨%d1, %f1, -, H1⟩, ⟨%f2, %hf2, H2⟩, Hk⟩
  subst hf0; subst hf2
  sl_exec (disch := first | exact hi0 | exact hi31)
  sl_step
  iapply Hk
  isplitl [H0]
  · iexists f0; isplitr; · ipureintro; rfl
    iexact H0
  isplitl [H1]
  · iexists _; isplitr
    swap; · iexact H1
    ipureintro
    rw [View.read_writes_eq_canon _ _ _ (cover_cons_unit_zero hz2 _ _ _)]
    rw [View.canon_unit_zero hz2]
    simp only [View.readAt_eq_ld, View.ld_unit_zero (S := S256x8192) hz2]
  iexists _; isplitr
  swap; · iexact H2
  ipureintro
  sl_unfold_words
  rw [View.read_writes_eq_canon _ _ _ (cover_cons_unit_zero hz2 _ _ _)]
  rw [View.canon_cons_unit_zero (S := S1x8192) hz2]
  simp only [View.readAt_eq_ld, View.ld_unit_zero (S := S256x8192) hz2, View.ld_unit_zero (S := S1x8192) hz2,
    View.readCov_unit_zero (S := S1x8192) _ hz2]

/-! ## What the staging buffers hold when the body is called -/

/-- The input window's current staging buffer holds the band at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- After the first band the in-degree window's staging buffer holds what the band before left: it is written
    back at the last band only, so no band that has a successor writes it back. -/
theorem before0_2_kept (c : Dev nD) (t : Fin cfg0.N) (h0 : t.val ≠ 0) (d) :
    (dat0 V c).before 2 t d = acc0 V c (t.val - 1) (Nat.lt_of_le_of_lt (Nat.sub_le _ _) t.isLt) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dat0]

/-! ## The body obligation at a band -/

/-- What the body is called with at band `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any band: the input's buffer holds the band; the band's number says which of the three control
    cases runs; after the first band the in-degree buffer holds the running column sums the band before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · have h31 : t.val ≠ 31 := by omega
    rw [acc0_first V c t h0]
    iintro ⟨HΦ, Ho, ⟨%d0, H0⟩, ⟨%d1, H1⟩, ⟨%d2, H2⟩⟩
    iapply (sound_kernel0_first c Set.univ (grid0.coords t) ((hcond0_0 t).mpr h0) (fun h => h31 ((hcond0_1 t).mp h))
      _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_kept V c t h0]
    by_cases h31 : t.val = 31
    · rw [acc0_last V c t h31]
      iintro ⟨HΦ, Ho, ⟨%d0, H0⟩, ⟨%d1, H1⟩, ⟨%d2, H2⟩⟩
      iapply (sound_kernel0_last c Set.univ (grid0.coords t) (fun h => h0 ((hcond0_0 t).mp h)) ((hcond0_1 t).mpr h31)
        _ _ _ _ _ _ (iblk0 V c 0 t) (acc0 V c (t.val - 1) (Nat.lt_of_le_of_lt (Nat.sub_le _ _) t.isLt)) _)
      isplitl [H0]; · iexact H0
      isplitl [H1]; · iexists _; iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [acc0_mid V c t h0 h31]
      iintro ⟨HΦ, Ho, ⟨%d0, H0⟩, ⟨%d1, H1⟩, ⟨%d2, H2⟩⟩
      iapply (sound_kernel0_mid c Set.univ (grid0.coords t) (fun h => h0 ((hcond0_0 t).mp h)) (fun h => h31 ((hcond0_1 t).mp h))
        _ _ _ _ _ _ (iblk0 V c 0 t) (acc0 V c (t.val - 1) (Nat.lt_of_le_of_lt (Nat.sub_le _ _) t.isLt)) _)
      isplitl [H0]; · iexact H0
      isplitl [H1]; · iexists _; iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The library's body obligation of the degree pass, at every band. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Body1.lean ====
/- The scaling pass's body obligation. -/
import proofs.«155841_j19774029431556_1_alg».proof.Proof.KI.Dat1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

/-- The offsets of an access through a whole buffer are zero on both axes. -/
private theorem zero_off : (![0, 0] : Fin 2 → Nat) = fun _ => 0 := funext fun a => by fin_cases a <;> rfl

/-- One store through the whole 512 × 512 buffer covers it. -/
private theorem cover_whole (p : Vec F S512x512 .f32) (y : S512x512.Idx) :
    ∃ pc ∈ ([⟨Rect.unit (s := S512x512) ![0, 0] S512x512.size inb_S512x512_S512x512_0_0, p⟩] :
      List (View.Piece (Elt F) S512x512 .f32)), y ∈ pc.1.set :=
  ⟨_, List.mem_singleton_self _, View.mem_set_unit_zero zero_off inb_S512x512_S512x512_0_0 y⟩

set_option maxHeartbeats 1000000 in
/-- The scaling body on whole staging memrefs: the four inputs' at read contents `x0 … x3`, the two outputs' at
    anything (each is loaded once, the value unused, before it is stored into). It runs to the continuation holding
    the inputs' as they were, the forward output's at payload 1 of `x1` and `x2` and the reverse output's at
    payload 2 of `x0` and `x3`: every load and every store is through the whole buffer, so a load reads the
    contents and the one store into an output leaves its payload. -/
theorem sound_kernel1 (c : Dev nD) (E : Set ℕ) (i : grid1.Coords)
    (arg2 : Memref sig .tc .vmem S512x512 .f32) (harg2 : arg2.IsWhole)
    (arg3 : Memref sig .tc .vmem S512x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S512x512 .f32) (harg6 : arg6.IsWhole)
    (arg7 : Memref sig .tc .vmem S512x512 .f32) (harg7 : arg7.IsWhole)
    (x0 x1 : Vec F S512x512 .f32) (x2 x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay1 x1 x2)
            ∗ owns (c : Thread nD τ) arg7 fullShare (k1_pay2 x0 x3)) -∗ K ⟨⟩))
      ⊢ wp frame (wpE (defs₀ (F := F)) Variants.none c none) E
          (cc1__scale_kernel i arg2 harg2 arg3 harg3 arg4 harg4 arg5 harg5 arg6 harg6 arg7 harg7) K := by
  simp only [cc1__scale_kernel_eq_skeleton]; unfold cc1__scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_whole _), View.canon_unit_zero zero_off]
    simp only [View.readAt_eq_ld, View.ld_unit_zero (S := S512x512) zero_off, View.ld_unit_zero (S := S1x512) zero_off]
  iexists _; isplitr
  swap; · iexact H5
  ipureintro
  rw [View.read_writes_eq_canon _ _ _ (cover_whole _), View.canon_unit_zero zero_off]
  simp only [View.readAt_eq_ld, View.ld_unit_zero (S := S512x512) zero_off, View.ld_unit_zero (S := S1x512) zero_off]

/-! ## What the inputs' buffers hold when the body is called -/

/-- Each input's current staging buffer holds its block at every tile (every input is fetched at every tile; the
    windows are uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic tile -/

/-- What the body is called with at tile `t` (the library's precondition, the six windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' memrefs hold their blocks (`before1_W`), the outputs' hold something, so
    `sound_kernel1` applies; the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of the scaling pass, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Entry1.lean ====
/- The scaling pass's arrays out of, and back into, a core's unscoped buffers: the matrix's buffer is read through two windows. -/
import proofs.«155841_j19774029431556_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's unscoped buffers, one by one. -/
theorem unscopedBufs_chain (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1_0) ↦{fullShare} V main_v1_0)
          ∗ (((c : Thread nD τ).loc main_v1_1) ↦{fullShare} V main_v1_1)) := by
  unfold unscopedBufs
  exact bigSep_eq_bigSepL_of_eq [main_arg0, main_v0_0, main_v0_1, main_v1_0, main_v1_1] (by decide) (by decide) _

/-- The scaling pass's arrays, window by window: the matrix's buffer twice, at the two halves of its share. -/
theorem arrays1_chain (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare} G 2) ∗ (((c : Thread nD τ).loc main_v0_1) ↦{fullShare} G 3)
          ∗ (((c : Thread nD τ).loc main_v1_0) ↦{fullShare} G 4) ∗ (((c : Thread nD τ).loc main_v1_1) ↦{fullShare} G 5)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ]
  rfl

/-- ENTRY: a core's unscoped buffers at the contents the degree pass left are the scaling pass's arrays at its entry contents. -/
theorem arrays1_entry (c : Dev nD) :
    (unscopedBufs (Ix := Unit) (Name := ℕ) (U := UR sig nD τ) (Lvl := ℕ) c (V2 m ρ c) : sProp 𝕄)
      ⊢ (dat1 (V2 m ρ) c).arrays ((dat1 (V2 m ρ) c).arrAt · 0) := by
  rw [unscopedBufs_chain, arrays1_chain]
  iintro ⟨HA, H0, H1, H2, H3⟩
  -- the matrix's buffer, whole, is its two halves: one per window on it
  ihave HA := (pointsTo_share (PosShare.mem_left_op_right fullShare)).1 $$ HA
  icases HA with ⟨HA₁, HA₂⟩
  isplitl [HA₁]; · iexact HA₁
  isplitl [HA₂]; · iexact HA₂
  isplitl [H0]; · iexact H0
  isplitl [H1]; · iexact H1
  isplitl [H2]; · iexact H2
  iexact H3

/-- EXIT: the scaling pass's arrays at their final contents are the core's unscoped buffers at the next boundary's contents. -/
theorem arrays1_exit (c : Dev nD) :
    (dat1 (V2 m ρ) c).arrays ((dat1 (V2 m ρ) c).arrAt · cfg1.N)
      ⊢ (unscopedBufs (Ix := Unit) (Name := ℕ) (U := UR sig nD τ) (Lvl := ℕ) c (V3 m ρ c) : sProp 𝕄) := by
  rw [unscopedBufs_chain, arrays1_chain]
  -- an input window's array is never written; the boundary's contents agree with the entry's off the two outputs
  have e0 : (dat1 (V2 m ρ) c).arrAt 0 cfg1.N = V3 m ρ c main_arg0 :=
    ((dat1 (V2 m ρ) c).arrAt_in 0 rfl _).trans (W2_of_ne m ρ c main_arg0 (by decide) (by decide)).symm
  have e1 : (dat1 (V2 m ρ) c).arrAt 1 cfg1.N = V3 m ρ c main_arg0 :=
    ((dat1 (V2 m ρ) c).arrAt_in 1 rfl _).trans (W2_of_ne m ρ c main_arg0 (by decide) (by decide)).symm
  have e2 : (dat1 (V2 m ρ) c).arrAt 2 cfg1.N = V3 m ρ c main_v0_0 :=
    ((dat1 (V2 m ρ) c).arrAt_in 2 rfl _).trans (W2_of_ne m ρ c main_v0_0 (by decide) (by decide)).symm
  have e3 : (dat1 (V2 m ρ) c).arrAt 3 cfg1.N = V3 m ρ c main_v0_1 :=
    ((dat1 (V2 m ρ) c).arrAt_in 3 rfl _).trans (W2_of_ne m ρ c main_v0_1 (by decide) (by decide)).symm
  have e4 : (dat1 (V2 m ρ) c).arrAt 4 cfg1.N = V3 m ρ c main_v1_0 := (W2_main_v1_0 m ρ c).symm
  have e5 : (dat1 (V2 m ρ) c).arrAt 5 cfg1.N = V3 m ρ c main_v1_1 := (W2_main_v1_1 m ρ c).symm
  rw [e0, e1, e2, e3, e4, e5]
  iintro ⟨HA₁, HA₂, H0, H1, H2, H3⟩
  -- the two halves of the matrix's buffer, at the same contents, are the buffer whole
  isplitl [HA₁ HA₂]
  · iapply (pointsTo_share (PosShare.mem_left_op_right fullShare)).2
    isplitl [HA₁]; · iexact HA₁
    iexact HA₂
  isplitl [H0]; · iexact H0
  isplitl [H1]; · iexact H1
  isplitl [H2]; · iexact H2
  iexact H3

end Cert.KernelIdeal.Frame

end
-- ==== Proof.KI.MainRun.lean ====
/-
  The run of the whole program: @main is the degree pass followed by the scaling pass. Each pass is a segment entered
  from "every unscoped buffer of the core at the boundary's contents" and left at the next boundary's contents
  (the fold of Fold.lean); the launch theorem for a list of segments then says every weakly fair execution
  terminates, nothing faulting, with every unscoped buffer at the last boundary's contents.
-/
import proofs.«155841_j19774029431556_1_alg».proof.Proof.KI.Fold
import proofs.«155841_j19774029431556_1_alg».proof.Proof.KI.Body0
import proofs.«155841_j19774029431556_1_alg».proof.Proof.KI.Body1
import proofs.«155841_j19774029431556_1_alg».proof.Proof.KI.Entry1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)

/-- At the degree pass's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W1_arr m ρ c w).symm
theorem hrest0 (c : Dev nD) : ∀ b, b ∉ Finset.univ.image (Pipeline.arrRef spec0) → V2 m ρ c b = V1 m ρ c b :=
  fun b hb => W1_of_ne m ρ c b fun w e => hb (Finset.mem_image.mpr ⟨w, Finset.mem_univ _, e⟩)

set_option backward.isDefEq.respectTransparency.types false in
/-- THE DEGREE PASS over the thread state: entered from every unscoped buffer at the launch contents, left at
    `W1`. Its arrays split out of the unscoped buffers and put back at the exit contents; the generator register
    into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING PASS over the thread state: entered from every unscoped buffer at `W1`, left at `W2`. All of the
    core's unscoped buffers are arrays of this pass, the matrix's read through two windows (Entry1.lean); nothing
    bypasses it. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays1_entry m ρ c
    rw [Pipeline.unscopedBufs_held] at hsplit
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m ρ c
    rw [Pipeline.unscopedBufs_held] at hjoin
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-- @main's two segments in order. -/
abbrev segs : List (Pipeline.Seg (pcfgs (F := F)) adm (pdats m ρ) () defs₀ 𝒱₀ L lv) :=
  [ .region (reg0 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer of every core at the last boundary's contents `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the matrix ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W2_main_arg0 m ρ c)) (run_main m ρ)

end Cert.KernelIdeal.Frame

end
-- ==== Proof.Spec.lean ====
/-
  The specification: the two transition matrices of a graph as functions of its adjacency matrix A (8192 × 8192),
  index by index over the extended reals.

    out-degree of node r = Σ_j A[r, j]          in-degree of node j = Σ_r A[r, j]
    forward[p, q] = A[q, p] · 1 / (out-degree q + ε)      reverse[p, q] = A[p, q] · 1 / (in-degree q + ε)

  Both programs compute exactly these; they differ only in how the in-degree sum is grouped (the kernel adds the
  column sums of 32 bands of 256 rows, one band after the other).  Regrouping a finite sum needs only that addition
  of extended reals is commutative and associative, so no finiteness of A is used.
-/
import Idealize.ShloMosaic.PureOps.Ideal
import Idealize.ShloMosaic.Lib.ValueIdx

noncomputable section

open scoped BigOperators

namespace Cert.Spec

open Idealize.ShloMosaic Idealize.ShloMosaic.ValueIdx

/-- An 8192 × 8192 matrix and a 1 × 8192 row of extended reals. -/
abbrev Mat : Type := (⟨2, ![8192, 8192]⟩ : Shape).Idx → EReal
abbrev Row : Type := (⟨2, ![1, 8192]⟩ : Shape).Idx → EReal

/-- The two float literals of both programs, as the extended reals their words denote. -/
def one : EReal := Ideal.ofBits .f32 0x3F800000#32
def eps : EReal := Ideal.ofBits .f32 0x322BCC77#32

/-- The sum of row `r` and of column `j`. -/
def rowSum (A : Mat) (r : Fin 8192) : EReal := ∑ j : Fin 8192, A (ix2 r j)
def colSum (A : Mat) (j : Fin 8192) : EReal := ∑ r : Fin 8192, A (ix2 r j)

/-- The reciprocal degrees plus ε, each as a 1 × 8192 row. -/
def dOut (A : Mat) : Row := fun i => Ideal.div one (rowSum A (i 1) + eps)
def dIn (A : Mat) : Row := fun i => Ideal.div one (colSum A (i 1) + eps)

/-- forward[p, q] = A[q, p] · dOut[q];  reverse[p, q] = A[p, q] · dIn[q]. -/
def fwd (A : Mat) : Mat := fun i => A (ix2 (i 1) (i 0)) * dOut A (ix2 0 (i 1))
def rev (A : Mat) : Mat := fun i => A (ix2 (i 0) (i 1)) * dIn A (ix2 0 (i 1))

end Cert.Spec

end
-- ==== Proof.KI.Val0Out.lean ====
/- The out-degree row the degree pass leaves: entry (0, r) is 1 / (sum of row r of the matrix + ε). -/
import proofs.«155841_j19774029431556_1_alg».proof.Proof.KI.Dat0
import proofs.«155841_j19774029431556_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace OutDeg

/-! ## The payload at an index -/

/-- A vector of `a` entries cast to one column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a band, read at row `p`: the sum of the band's row `p`. -/
theorem rowsum_apply (x : Vec Ideal S256x8192 .f32) (h : S256x8192.Reduces [1] S256) (hφ : FKind.Formats .f32)
    (hacc : (0x00000000#32 : BitVec 32) = 0x00000000#32) (p : Fin 256) :
    multiReduction (F := Ideal) .add [1] S256 x 0x00000000#32 h hφ hacc (ix1 p) = ∑ j : Fin 8192, x (ix2 p j) := by
  refine (Ideal.multiReduction_add_single x 0x00000000#32 h hφ hacc (ix1 p)).trans ?_
  refine Finset.sum_congr rfl fun k _ => congrArg x ?_
  funext a
  match a with
  | ⟨0, _⟩ => rfl
  | ⟨1, _⟩ => rfl

/-- The out-degree payload of a band, read at `(0, p)`: one over (the sum of row `p` of the band plus ε). -/
theorem pay1_apply (x : Vec Ideal S256x8192 .f32) (u : Fin 1) (p : Fin 256) :
    k0_pay1 (F := Ideal) x (ix2 u p)
      = Ideal.div (Ideal.ofBits .f32 0x3F800000#32) ((∑ j : Fin 8192, x (ix2 p j)) + Ideal.ofBits .f32 0x322BCC77#32) := by
  unfold k0_pay1
  refine (transpose_ix2_apply _ _ u p).trans ?_
  rw [divf_apply, addf_apply, broadcast_apply, broadcast_apply]
  refine congrArg₂ Ideal.div rfl (congrArg₂ (· + ·) ?_ rfl)
  refine (shapeCast_a_a1_apply _ _ p u).trans ?_
  exact rowsum_apply x _ _ _ p

/-! ## The blocks in the arrays -/

/-- The block indices of the degree pass, decided over its 32 points: band `t` of the matrix is block `(t, 0)`, and
    the out-degree block written back at `t` is block `(0, t)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- Band `t` at `(p, q)` is the matrix at `(256 t + p, q)`. -/
theorem band_apply (c : Dev nD) (t : Fin cfg0.N) (p : Fin 256) (q : Fin 8192) (k : Fin 8192)
    (hk : k.val = 256 * t.val + p.val) :
    band (F := Ideal) V c t (ix2 p q) = (V c main_arg0 : Cert.Spec.Mat) (ix2 k q) := by
  obtain ⟨e0, e1, -, -⟩ := idx_facts0 t
  show iblk0 V c 0 t (ix2 p q) = _
  unfold iblk0
  rw [View.read_apply]
  show V c main_arg0 _ = V c main_arg0 _
  congr 1
  funext a
  apply Fin.ext
  match a with
  | ⟨0, _⟩ => show win0_0.index t (0 : Fin 2) * 256 + 1 * p.val = k.val; rw [e0, hk]; omega
  | ⟨1, _⟩ => show win0_0.index t (1 : Fin 2) * 8192 + 1 * q.val = q.val; rw [e1]; omega

/-- What point `t` writes back into the out-degree row, read at `(0, p)`: the specification's entry at column
    `256 t + p`. -/
theorem flushed_apply (c : Dev nD) (t : Fin cfg0.N) (u : Fin 1) (p : Fin 256) :
    (dat0 (F := Ideal) V c).flushed 1 t (ix2 u p)
      = ((cfg0.win 1).blk t).view.read (Elt Ideal) (Cert.Spec.dOut (V c main_arg0)) (ix2 u p) := by
  obtain ⟨-, -, e2, e3⟩ := idx_facts0 t
  show (dat0 (F := Ideal) V c).after 1 t (ix2 u p) = _
  rw [after0_1, pay1_apply, View.read_apply]
  show _ = Cert.Spec.dOut (V c main_arg0) (((cfg0.win 1).blk t).view.emb (ix2 u p))
  unfold Cert.Spec.dOut Cert.Spec.rowSum Cert.Spec.one Cert.Spec.eps
  refine congrArg₂ Ideal.div rfl (congrArg₂ (· + ·) ?_ rfl)
  refine Finset.sum_congr rfl fun j _ => band_apply V c t p j _ ?_
  show win0_1.index t (1 : Fin 2) * 256 + 1 * p.val = 256 * t.val + p.val
  rw [e3]; omega

/-- What point `t` writes back into the out-degree row is block `t` of the specification's row. -/
theorem flushed_outdeg (c : Dev nD) (t : Fin cfg0.N) :
    (dat0 (F := Ideal) V c).flushed 1 t
      = ((cfg0.win 1).blk t).view.read (Elt Ideal) (Cert.Spec.dOut (V c main_arg0)) := by
  funext y
  obtain ⟨u, p, rfl⟩ : ∃ (u : Fin 1) (p : Fin 256), y = ix2 u p := ⟨y 0, y 1, eq_ix2 (n0 := 1) (n1 := 256) y⟩
  exact flushed_apply V c t u p

/-- An index of the out-degree row is in point `t`'s block iff each coordinate is in the block's range on its axis. -/
theorem mem_blk_outdeg (t : Fin cfg0.N) (i : S1x8192.Idx) :
    i ∈ ((cfg0.win 1).blk t).view.set
      ↔ ∀ a : Fin 2, win0_1.index t a * S1x256.size a ≤ (i a).val ∧ (i a).val < win0_1.index t a * S1x256.size a + S1x256.size a := by
  show i ∈ ((View.whole main_v0_0).slice (win0_1.rect t)).set ↔ _
  rw [View.set_slice_whole, Rect.mem_set_unit]
  exact Iff.rfl

/-- The 32 blocks tile the row: column `r` is in the block of point `r / 256`, and every point writes back. -/
theorem cover_outdeg (i : S1x8192.Idx) :
    ∃ t : Fin cfg0.N, (cfg0.win 1).flush t = true ∧ i ∈ ((cfg0.win 1).blk t).view.set := by
  have hi0 : (i 0).val < 1 := (i 0).isLt
  have hi1 : (i 1).val < 8192 := (i 1).isLt
  have hN : cfg0.N = 32 := N_0
  refine ⟨⟨(i 1).val / 256, by rw [hN]; omega⟩, flush0_1 _, ?_⟩
  obtain ⟨-, -, e2, e3⟩ := idx_facts0 ⟨(i 1).val / 256, by rw [hN]; omega⟩
  rw [mem_blk_outdeg]
  intro a
  match a with
  | ⟨0, _⟩ =>
    show win0_1.index _ (0 : Fin 2) * 1 ≤ (i 0).val ∧ (i 0).val < win0_1.index _ (0 : Fin 2) * 1 + 1
    rw [e2]; omega
  | ⟨1, _⟩ =>
    show win0_1.index _ (1 : Fin 2) * 256 ≤ (i 1).val ∧ (i 1).val < win0_1.index _ (1 : Fin 2) * 256 + 256
    rw [e3]
    show (i 1).val / 256 * 256 ≤ (i 1).val ∧ (i 1).val < (i 1).val / 256 * 256 + 256
    omega

end OutDeg

/-! ## The array after the pass -/

open OutDeg in
/-- After the degree pass the out-degree array holds the specification's reciprocal out-degrees of the matrix the pass found. -/
theorem arrAt_outdeg (c : Dev nD) :
    ((dat0 (F := Ideal) V c).arrAt 1 cfg0.N : Cert.Spec.Row) = Cert.Spec.dOut (V c main_arg0) :=
  (dat0 (F := Ideal) V c).arrAt_eq_of_cover 1 (Cert.Spec.dOut (V c main_arg0)) (fun t _ => flushed_outdeg V c t) cover_outdeg

end Cert.KernelIdeal.Val

end
-- ==== Proof.KI.Val0In.lean ====
/- The in-degree row the degree pass leaves: entry (0, j) is 1 / (sum of column j of the matrix + ε), the column sum gathered band by band. -/
import proofs.«155841_j19774029431556_1_alg».proof.Proof.KI.Dat0
import proofs.«155841_j19774029431556_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace InDeg

/-! ## The body's payloads at an index -/

/-- The column sums of a band, read at column `j`: the sum over the band's 256 rows. -/
theorem colsum_apply (x : Vec Ideal S256x8192 .f32) (hφ : FKind.Formats .f32)
    (hacc : (0x00000000#32 : BitVec 32) = 0x00000000#32) (j : Fin 8192) :
    multiReduction (F := Ideal) .add [0] S8192 x 0x00000000#32 reduces_S256x8192_S8192 hφ hacc (ix1 j)
      = ∑ p : Fin 256, x (ix2 p j) := by
  refine (Ideal.multiReduction_add_single x 0x00000000#32 reduces_S256x8192_S8192 hφ hacc (ix1 j)).trans ?_
  refine Finset.sum_congr rfl fun p _ => congrArg x ?_
  funext a
  apply Fin.ext
  match a with
  | ⟨0, _⟩ => rfl
  | ⟨1, _⟩ => rfl

/-- The zero row the first band starts from. -/
theorem pay2_apply (i : S1x8192.Idx) : k0_pay2 (F := Ideal) i = 0 := by
  unfold k0_pay2
  exact Ideal.ofBits_zero_f32

/-- The accumulating store: the row held before plus the band's column sums. -/
theorem pay3_apply (x : Vec Ideal S256x8192 .f32) (a : Vec Ideal S1x8192 .f32) (j : Fin 8192) :
    k0_pay3 x a (ix2 (0 : Fin 1) j) = a (ix2 (0 : Fin 1) j) + ∑ p : Fin 256, x (ix2 p j) := by
  unfold k0_pay3
  rw [shapeCast_self]
  refine (addf_apply _ _ _).trans ?_
  congr 1
  refine (shapeCast_addUnit_apply ![8192] _ shapeCasts_S8192_S1x8192 (ix2 (0 : Fin 1) j)).trans ?_
  refine Eq.trans (congrArg _ ?_) (colsum_apply x (.inl rfl) rfl j)
  funext a
  match a with
  | ⟨0, _⟩ => rfl

/-- The last band's store: the reciprocal of the row held before plus ε. -/
theorem pay4_apply (a : Vec Ideal S1x8192 .f32) (i : S1x8192.Idx) :
    k0_pay4 a i = Ideal.div Cert.Spec.one (a i + Cert.Spec.eps) := by
  unfold k0_pay4
  rw [shapeCast_self]
  rfl

/-! ## The band a point reads -/

/-- The input window's block index at band `t` is (t, 0). -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem lt32 (t : Fin cfg0.N) : t.val < 32 := by
  exact lt_of_lt_of_eq t.isLt N_0

/-- Band `t` at (p, q) is the matrix at (256·t + p, q). -/
theorem band_apply (c : Dev nD) (t : Fin cfg0.N) (p : Fin 256) (q : Fin 8192) :
    band V c t (ix2 p q)
      = (V c main_arg0 : Cert.Spec.Mat) (ix2 ⟨256 * t.val + p.val, by have := lt32 t; have := p.isLt; omega⟩ q) := by
  obtain ⟨e0, e1⟩ := idx_in t
  show (V c main_arg0 : Cert.Spec.Mat) (((cfg0.win 0).blk t).view.emb (ix2 p q)) = _
  refine congrArg _ ?_
  funext a
  apply Fin.ext
  match a with
  | ⟨0, _⟩ => show win0_0.index t (0 : Fin 2) * 256 + 1 * p.val = 256 * t.val + p.val; rw [e0]; omega
  | ⟨1, _⟩ => show win0_0.index t (1 : Fin 2) * 8192 + 1 * q.val = q.val; rw [e1]; omega

/-! ## Regrouping: the bands' column sums are the column's sum -/

/-- Column `j` of the matrix as a function of the row number (zero past the last row). -/
def col (c : Dev nD) (j : Fin 8192) (r : ℕ) : EReal :=
  if h : r < 8192 then (V c main_arg0 : Cert.Spec.Mat) (ix2 ⟨r, h⟩ j) else 0

/-- Band `t`'s column sum at `j` is the column's entries at rows 256·t … 256·t + 255. -/
theorem band_colsum (c : Dev nD) (t : Fin cfg0.N) (j : Fin 8192) :
    ∑ p : Fin 256, band V c t (ix2 p j) = ∑ p ∈ Finset.range 256, col V c j (256 * t.val + p) := by
  rw [Finset.sum_range]
  refine Finset.sum_congr rfl fun p _ => ?_
  have hp : 256 * t.val + p.val < 8192 := by have := lt32 t; have := p.isLt; omega
  rw [band_apply, col, dif_pos hp]

/-- The column's sum over all 8192 rows. -/
theorem col_sum (c : Dev nD) (j : Fin 8192) :
    ∑ r ∈ Finset.range 8192, col V c j r = Cert.Spec.colSum (V c main_arg0) j := by
  rw [Finset.sum_range]
  refine Finset.sum_congr rfl fun r _ => ?_
  rw [col, dif_pos r.isLt]

/-! ## The accumulator after each band -/

/-- After band `n` (before the last) the in-degree buffer holds, at column `j`, the column's sum over rows 0 … 256·(n+1) − 1. -/
theorem acc_mid (c : Dev nD) (j : Fin 8192) : ∀ (n : ℕ) (hn : n < cfg0.N), n < 31 →
    acc0 V c n hn (ix2 (0 : Fin 1) j) = ∑ r ∈ Finset.range (256 * (n + 1)), col V c j r
  | 0, hn, _ => by
    show k0_pay3 (band V c ⟨0, hn⟩) (k0_pay2 (F := Ideal)) (ix2 (0 : Fin 1) j) = _
    rw [pay3_apply, pay2_apply, zero_add, band_colsum]
    simp only [Nat.mul_zero, Nat.zero_add, Nat.mul_one]
  | n + 1, hn, h31 => by
    have e : acc0 V c (n + 1) hn = k0_pay3 (band V c ⟨n + 1, hn⟩) (acc0 V c n (Nat.lt_of_succ_lt hn)) :=
      (if_neg (by omega)).trans rfl
    rw [e, pay3_apply, acc_mid c j n (Nat.lt_of_succ_lt hn) (by omega), band_colsum,
      show 256 * (n + 1 + 1) = 256 * (n + 1) + 256 by ring, Finset.sum_range_add]

/-- After the last band it holds the reciprocal of the whole column's sum plus ε. -/
theorem acc_last (c : Dev nD) (h : 31 < cfg0.N) (i : S1x8192.Idx) :
    acc0 V c 31 h i = Cert.Spec.dIn (V c main_arg0) i := by
  obtain ⟨r, j, rfl⟩ : ∃ (r : Fin 1) (j : Fin 8192), i = ix2 r j := ⟨i 0, i 1, eq_ix2 i⟩
  obtain rfl : r = 0 := Subsingleton.elim _ _
  have e : acc0 V c 31 h = k0_pay4 (k0_pay3 (band V c ⟨31, h⟩) (acc0 V c 30 (Nat.lt_of_succ_lt h))) :=
    (if_pos rfl).trans rfl
  rw [e, pay4_apply, pay3_apply, acc_mid V c j 30 (Nat.lt_of_succ_lt h) (by omega), band_colsum,
    ← Finset.sum_range_add]
  show Ideal.div Cert.Spec.one (∑ r ∈ Finset.range 8192, col V c j r + Cert.Spec.eps) = _
  rw [col_sum]
  rfl

/-! ## The array the write-back leaves -/

/-- The last band, the one point whose body's result is written back. -/
abbrev tLast : Fin cfg0.N := ⟨31, lt_of_lt_of_eq (by decide) N_0.symm⟩

/-- The one write-back (after the last band) writes the specification's row: the window's block is the whole array. -/
theorem flushed_eq (c : Dev nD) (t : Fin cfg0.N) (hf : (cfg0.win 2).flush t = true) :
    (dat0 (F := Ideal) V c).flushed 2 t
      = ((cfg0.win 2).blk t).view.read (Elt Ideal) (Cert.Spec.dIn (V c main_arg0)) := by
  have h31 : t.val = 31 := by have := (flush0_2 t).mp hf; have := lt32 t; omega
  obtain rfl : t = tLast := Fin.ext h31
  show (cfg0.win 2).cut (grid0.coords _) ((dat0 (F := Ideal) V c).after 2 _) = _
  rw [after0_2]
  funext y
  show acc0 V c 31 _ ((cfg0.win 2).xinj _ y) = Cert.Spec.dIn (V c main_arg0) (((cfg0.win 2).blk _).view.emb y)
  rw [acc_last]
  show Ideal.div Cert.Spec.one (Cert.Spec.colSum (V c main_arg0) _ + Cert.Spec.eps)
    = Ideal.div Cert.Spec.one (Cert.Spec.colSum (V c main_arg0) _ + Cert.Spec.eps)
  refine congrArg (fun q => Ideal.div Cert.Spec.one (Cert.Spec.colSum (V c main_arg0) q + Cert.Spec.eps)) ?_
  apply Fin.ext
  show (y 1).val = win0_2.index _ (1 : Fin 2) * 8192 + 1 * (y 1).val
  rw [show win0_2.index _ (1 : Fin 2) = 0 from rfl]
  omega

end InDeg

open InDeg

/-- After the degree pass the in-degree array holds the specification's reciprocal in-degrees of the matrix the pass found. -/
theorem arrAt_indeg (c : Dev nD) :
    ((dat0 (F := Ideal) V c).arrAt 2 cfg0.N : Cert.Spec.Row) = Cert.Spec.dIn (V c main_arg0) :=
  (dat0 (F := Ideal) V c).arrAt_eq_of_cover 2 (Cert.Spec.dIn (V c main_arg0)) (flushed_eq V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 1 := (i 0).isLt
      have h1 : (i 1 : Nat) < 8192 := (i 1).isLt
      match a with
      | ⟨0, _⟩ =>
        show win0_2.index tLast 0 * 1 ≤ (i 0 : Nat) ∧ (i 0 : Nat) < win0_2.index tLast 0 * 1 + 1
        rw [show win0_2.index tLast 0 = 0 from rfl]; omega
      | ⟨1, _⟩ =>
        show win0_2.index tLast 1 * 8192 ≤ (i 1 : Nat) ∧ (i 1 : Nat) < win0_2.index tLast 1 * 8192 + 8192
        rw [show win0_2.index tLast 1 = 0 from rfl]; omega⟩

end Cert.KernelIdeal.Val

end
-- ==== Proof.KI.Val1.lean ====
/- The two matrices the scaling pass leaves, from the matrix and the two degree rows it finds. -/
import proofs.«155841_j19774029431556_1_alg».proof.Proof.KI.Dat1
import proofs.«155841_j19774029431556_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

namespace Scale

/-! ## The two payloads at an index -/

/-- A row slice broadcast down the rows of a tile reads, at (p, q), the slice's element q. -/
theorem bcast_row_apply (x : Vec Ideal S1x512 .f32) (p q : Fin 512) :
    broadcastTo S512x512 (shapeCast S1x512 x shapeCasts_S1x512_S1x512) broadcasts_S1x512_S512x512 (ix2 p q)
      = x (ix2 0 q) := by
  rw [shapeCast_self]
  refine broadcastTo_apply x broadcasts_S1x512_S512x512 (ix2 p q) (ix2 0 q) fun a => ?_
  match a with
  | ⟨0, _⟩ => rfl
  | ⟨1, _⟩ => rfl

/-- A transposed tile reads, at (p, q), the tile's element (q, p). -/
theorem transpose_tile_apply (x : Vec Ideal S512x512 .f32) (p q : Fin 512) :
    transpose S512x512 [1, 0] x transposes_S512x512_p1_0_S512x512 (ix2 p q) = x (ix2 q p) := by
  refine transpose_apply [1, 0] x transposes_S512x512_p1_0_S512x512 (ix2 p q) (ix2 q p) fun b => ?_
  match b with
  | ⟨0, _⟩ => rfl
  | ⟨1, _⟩ => rfl

/-- The forward payload at tile-local (p, q): the transposed tile's element (q, p) times the row slice's element q. -/
theorem pay1_apply (x1 : Vec Ideal S512x512 .f32) (x2 : Vec Ideal S1x512 .f32) (p q : Fin 512) :
    k1_pay1 x1 x2 (ix2 p q) = x1 (ix2 q p) * x2 (ix2 0 q) := by
  unfold k1_pay1
  rw [mulf_apply]
  exact congrArg₂ (· * ·) (transpose_tile_apply x1 p q) (bcast_row_apply x2 p q)

/-- The reverse payload at tile-local (p, q): the tile's element (p, q) times the row slice's element q. -/
theorem pay2_apply (x0 : Vec Ideal S512x512 .f32) (x3 : Vec Ideal S1x512 .f32) (p q : Fin 512) :
    k1_pay2 x0 x3 (ix2 p q) = x0 (ix2 p q) * x3 (ix2 0 q) := by
  unfold k1_pay2
  rw [mulf_apply]
  exact congrArg (x0 (ix2 p q) * ·) (bcast_row_apply x3 p q)

/-- The six windows' index maps over the 16 × 16 grid: point t is tile (t / 16, t % 16) of both results and of the
    matrix read straight, tile (t % 16, t / 16) of the matrix read across, slice t % 16 of both rows. -/
theorem idx_facts : ∀ t : Fin cfg1.N,
    win1_4.index t (0 : Fin 2) = t.val / 16 ∧ win1_4.index t (1 : Fin 2) = t.val % 16
    ∧ win1_5.index t (0 : Fin 2) = t.val / 16 ∧ win1_5.index t (1 : Fin 2) = t.val % 16
    ∧ win1_0.index t (0 : Fin 2) = t.val / 16 ∧ win1_0.index t (1 : Fin 2) = t.val % 16
    ∧ win1_1.index t (0 : Fin 2) = t.val % 16 ∧ win1_1.index t (1 : Fin 2) = t.val / 16
    ∧ win1_2.index t (0 : Fin 2) = 0 ∧ win1_2.index t (1 : Fin 2) = t.val % 16
    ∧ win1_3.index t (0 : Fin 2) = 0 ∧ win1_3.index t (1 : Fin 2) = t.val % 16 :=
  (by decide +kernel : ∀ t : Fin grid1.N, _)

/-! ## A tile of each result from its input blocks -/

/-- A tile of the forward result from its two input blocks, every block read where its window places it: if the
    transposed-tile window's element (q, p) sits where the result window's element (p, q) sits with its coordinates
    exchanged, and the row window's element q sits under the result's column, the tile is that block of the
    forward matrix. -/
theorem fwd_tile (A : Cert.Spec.Mat) (d : Cert.Spec.Row) (x1 : Vec Ideal S512x512 .f32) (x2 : Vec Ideal S1x512 .f32)
    (e1 e4 : S512x512.Idx → S8192x8192.Idx) (e2 : S1x512.Idx → S1x8192.Idx)
    (h1 : ∀ y, x1 y = A (e1 y)) (h2 : ∀ y, x2 y = d (e2 y))
    (he1 : ∀ p q : Fin 512, e1 (ix2 q p) = ix2 (e4 (ix2 p q) 1) (e4 (ix2 p q) 0))
    (he2 : ∀ p q : Fin 512, e2 (ix2 0 q) = ix2 0 (e4 (ix2 p q) 1))
    (j : S512x512.Idx) :
    k1_pay1 x1 x2 j = A (ix2 (e4 j 1) (e4 j 0)) * d (ix2 0 (e4 j 1)) := by
  obtain ⟨p, q, rfl⟩ : ∃ (p q : Fin 512), j = ix2 p q := ⟨j 0, j 1, eq_ix2 j⟩
  rw [pay1_apply, h1, h2, he1 p q, he2 p q]
  rfl

/-- A tile of the reverse result from its two input blocks: if the straight tile window's element (p, q) sits where
    the result window's does, and the row window's element q sits under the result's column, the tile is that block
    of the reverse matrix. -/
theorem rev_tile (A : Cert.Spec.Mat) (d : Cert.Spec.Row) (x0 : Vec Ideal S512x512 .f32) (x3 : Vec Ideal S1x512 .f32)
    (e0 e5 : S512x512.Idx → S8192x8192.Idx) (e3 : S1x512.Idx → S1x8192.Idx)
    (h0 : ∀ y, x0 y = A (e0 y)) (h3 : ∀ y, x3 y = d (e3 y))
    (he0 : ∀ p q : Fin 512, e0 (ix2 p q) = ix2 (e5 (ix2 p q) 0) (e5 (ix2 p q) 1))
    (he3 : ∀ p q : Fin 512, e3 (ix2 0 q) = ix2 0 (e5 (ix2 p q) 1))
    (j : S512x512.Idx) :
    k1_pay2 x0 x3 j = A (ix2 (e5 j 0) (e5 j 1)) * d (ix2 0 (e5 j 1)) := by
  obtain ⟨p, q, rfl⟩ : ∃ (p q : Fin 512), j = ix2 p q := ⟨j 0, j 1, eq_ix2 j⟩
  rw [pay2_apply, h0, h3, he0 p q, he3 p q]
  rfl

end Scale

variable (V : (c : Dev nD) → (b : Ref sig .tc) → Buf (Elt Ideal) ((c : Thread nD τ).loc b))

/-- The matrix and the two degree rows the pass finds, at their literal types. -/
abbrev matOf (c : Dev nD) : Cert.Spec.Mat := V c main_arg0
abbrev doutOf (c : Dev nD) : Cert.Spec.Row := V c main_v0_0
abbrev dinOf (c : Dev nD) : Cert.Spec.Row := V c main_v0_1

namespace Scale

/-! ## What each tile writes back -/

/-- Tile t of the forward window, written back, is block t of the forward matrix. -/
theorem flushed_fwd (c : Dev nD) (t : Fin cfg1.N) :
    (dat1 (F := Ideal) V c).flushed 4 t
      = ((cfg1.win 4).blk t).view.read (Elt Ideal)
          (fun i => matOf V c (ix2 (i 1) (i 0)) * doutOf V c (ix2 0 (i 1)) : Cert.Spec.Mat) := by
  show (cfg1.win 4).cut (grid1.coords t) ((dat1 (F := Ideal) V c).after 4 t) = _
  rw [after1_4]
  obtain ⟨f40, f41, f50, f51, f00, f01, f10, f11, f20, f21, f30, f31⟩ := idx_facts t
  funext j
  refine fwd_tile (matOf V c) (doutOf V c) (tileS V c t) (doutS V c t)
    (fun y => ((cfg1.win 1).blk t).view.emb y) (fun y => ((cfg1.win 4).blk t).view.emb y)
    (fun y => ((cfg1.win 2).blk t).view.emb y) (fun y => rfl) (fun y => rfl) (fun p q => ?_) (fun p q => ?_) j
  · funext a; apply Fin.ext
    match a with
    | ⟨0, _⟩ => show win1_1.index t (0 : Fin 2) * 512 + 1 * q.val = win1_4.index t (1 : Fin 2) * 512 + 1 * q.val; omega
    | ⟨1, _⟩ => show win1_1.index t (1 : Fin 2) * 512 + 1 * p.val = win1_4.index t (0 : Fin 2) * 512 + 1 * p.val; omega
  · funext a; apply Fin.ext
    match a with
    | ⟨0, _⟩ => show win1_2.index t (0 : Fin 2) * 1 + 1 * 0 = 0; omega
    | ⟨1, _⟩ => show win1_2.index t (1 : Fin 2) * 512 + 1 * q.val = win1_4.index t (1 : Fin 2) * 512 + 1 * q.val; omega

/-- Tile t of the reverse window, written back, is block t of the reverse matrix. -/
theorem flushed_rev (c : Dev nD) (t : Fin cfg1.N) :
    (dat1 (F := Ideal) V c).flushed 5 t
      = ((cfg1.win 5).blk t).view.read (Elt Ideal)
          (fun i => matOf V c (ix2 (i 0) (i 1)) * dinOf V c (ix2 0 (i 1)) : Cert.Spec.Mat) := by
  show (cfg1.win 5).cut (grid1.coords t) ((dat1 (F := Ideal) V c).after 5 t) = _
  rw [after1_5]
  obtain ⟨f40, f41, f50, f51, f00, f01, f10, f11, f20, f21, f30, f31⟩ := idx_facts t
  funext j
  refine rev_tile (matOf V c) (dinOf V c) (tileN V c t) (dinS V c t)
    (fun y => ((cfg1.win 0).blk t).view.emb y) (fun y => ((cfg1.win 5).blk t).view.emb y)
    (fun y => ((cfg1.win 3).blk t).view.emb y) (fun y => rfl) (fun y => rfl) (fun p q => ?_) (fun p q => ?_) j
  · funext a; apply Fin.ext
    match a with
    | ⟨0, _⟩ => show win1_0.index t (0 : Fin 2) * 512 + 1 * p.val = win1_5.index t (0 : Fin 2) * 512 + 1 * p.val; omega
    | ⟨1, _⟩ => show win1_0.index t (1 : Fin 2) * 512 + 1 * q.val = win1_5.index t (1 : Fin 2) * 512 + 1 * q.val; omega
  · funext a; apply Fin.ext
    match a with
    | ⟨0, _⟩ => show win1_3.index t (0 : Fin 2) * 1 + 1 * 0 = 0; omega
    | ⟨1, _⟩ => show win1_3.index t (1 : Fin 2) * 512 + 1 * q.val = win1_5.index t (1 : Fin 2) * 512 + 1 * q.val; omega

/-! ## The tiles cover both results -/

/-- An index of the forward result is in tile t iff each coordinate is in the tile's range on its axis. -/
theorem mem_blk_fwd (t : Fin cfg1.N) (i : S8192x8192.Idx) :
    i ∈ ((cfg1.win 4).blk t).view.set
      ↔ ∀ a : Fin 2, win1_4.index t a * S512x512.size a ≤ (i a).val
          ∧ (i a).val < win1_4.index t a * S512x512.size a + S512x512.size a := by
  show i ∈ ((View.whole main_v1_0).slice (win1_4.rect t)).set ↔ _
  rw [View.set_slice_whole, Rect.mem_set_unit]
  exact Iff.rfl

/-- The same of the reverse result. -/
theorem mem_blk_rev (t : Fin cfg1.N) (i : S8192x8192.Idx) :
    i ∈ ((cfg1.win 5).blk t).view.set
      ↔ ∀ a : Fin 2, win1_5.index t a * S512x512.size a ≤ (i a).val
          ∧ (i a).val < win1_5.index t a * S512x512.size a + S512x512.size a := by
  show i ∈ ((View.whole main_v1_1).slice (win1_5.rect t)).set ↔ _
  rw [View.set_slice_whole, Rect.mem_set_unit]
  exact Iff.rfl

/-- The tile that holds (r, s) is tile (r / 512, s / 512): point 16 · (r / 512) + s / 512 of the grid. -/
theorem tile_of (i : S8192x8192.Idx) :
    ∃ T : Fin cfg1.N, T.val / 16 = (i 0).val / 512 ∧ T.val % 16 = (i 1).val / 512 := by
  have hi0 : (i 0).val < 8192 := (i 0).isLt
  have hi1 : (i 1).val < 8192 := (i 1).isLt
  have hN : cfg1.N = 256 := N_1
  exact ⟨⟨16 * ((i 0).val / 512) + (i 1).val / 512, by rw [hN]; omega⟩, by show (16 * ((i 0).val / 512) + (i 1).val / 512) / 16 = _; omega,
    by show (16 * ((i 0).val / 512) + (i 1).val / 512) % 16 = _; omega⟩

/-- Every index of the forward result is in some tile. -/
theorem cover_fwd (i : S8192x8192.Idx) :
    ∃ t : Fin cfg1.N, (cfg1.win 4).flush t = true ∧ i ∈ ((cfg1.win 4).blk t).view.set := by
  obtain ⟨T, h0, h1⟩ := tile_of i
  obtain ⟨f40, f41, -⟩ := idx_facts T
  refine ⟨T, flush1_4 T, ?_⟩
  rw [mem_blk_fwd]
  intro a
  match a with
  | ⟨0, _⟩ => show win1_4.index T (0 : Fin 2) * 512 ≤ (i 0).val ∧ (i 0).val < win1_4.index T (0 : Fin 2) * 512 + 512; omega
  | ⟨1, _⟩ => show win1_4.index T (1 : Fin 2) * 512 ≤ (i 1).val ∧ (i 1).val < win1_4.index T (1 : Fin 2) * 512 + 512; omega

/-- Every index of the reverse result is in some tile. -/
theorem cover_rev (i : S8192x8192.Idx) :
    ∃ t : Fin cfg1.N, (cfg1.win 5).flush t = true ∧ i ∈ ((cfg1.win 5).blk t).view.set := by
  obtain ⟨T, h0, h1⟩ := tile_of i
  obtain ⟨-, -, f50, f51, -⟩ := idx_facts T
  refine ⟨T, flush1_5 T, ?_⟩
  rw [mem_blk_rev]
  intro a
  match a with
  | ⟨0, _⟩ => show win1_5.index T (0 : Fin 2) * 512 ≤ (i 0).val ∧ (i 0).val < win1_5.index T (0 : Fin 2) * 512 + 512; omega
  | ⟨1, _⟩ => show win1_5.index T (1 : Fin 2) * 512 ≤ (i 1).val ∧ (i 1).val < win1_5.index T (1 : Fin 2) * 512 + 512; omega

end Scale

open Scale

/-- forward[p, q] = matrix[q, p] · (out-degree row)[0, q]. -/
theorem arrAt_fwd (c : Dev nD) :
    ((dat1 (F := Ideal) V c).arrAt 4 cfg1.N : Cert.Spec.Mat)
      = fun i => matOf V c (ix2 (i 1) (i 0)) * doutOf V c (ix2 0 (i 1)) :=
  (dat1 (F := Ideal) V c).arrAt_eq_of_cover 4 _ (fun t _ => flushed_fwd V c t) cover_fwd

/-- reverse[p, q] = matrix[p, q] · (in-degree row)[0, q]. -/
theorem arrAt_rev (c : Dev nD) :
    ((dat1 (F := Ideal) V c).arrAt 5 cfg1.N : Cert.Spec.Mat)
      = fun i => matOf V c (ix2 (i 0) (i 1)) * dinOf V c (ix2 0 (i 1)) :=
  (dat1 (F := Ideal) V c).arrAt_eq_of_cover 5 _ (fun t _ => flushed_rev V c t) cover_rev

end Cert.KernelIdeal.Val

end
-- ==== Proof.KI.ValK.lean ====
/- The two result matrices of the whole program, as the specification's functions of the launch matrix. -/
import proofs.«155841_j19774029431556_1_alg».proof.Proof.KI.MainRun
import proofs.«155841_j19774029431556_1_alg».proof.Proof.KI.Val0Out
import proofs.«155841_j19774029431556_1_alg».proof.Proof.KI.Val0In
import proofs.«155841_j19774029431556_1_alg».proof.Proof.KI.Val1

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The matrix at launch, at its literal type. -/
abbrev argOf (c : Dev nD) : Cert.Spec.Mat := m ((c : Thread nD τ).loc main_arg0)

/-- What the scaling pass finds: the matrix as launched and the degree pass's two rows. -/
theorem matOf_V2 (c : Dev nD) : matOf (V2 m ρ) c = argOf m c := V2_main_arg0 m ρ c
theorem doutOf_V2 (c : Dev nD) : doutOf (V2 m ρ) c = Cert.Spec.dOut (argOf m c) :=
  (V2_main_v0_0 m ρ c).trans (arrAt_outdeg (V1 m ρ) c)
theorem dinOf_V2 (c : Dev nD) : dinOf (V2 m ρ) c = Cert.Spec.dIn (argOf m c) :=
  (V2_main_v0_1 m ρ c).trans (arrAt_indeg (V1 m ρ) c)

/-- The forward matrix at the end. -/
theorem final_fwd (c : Dev nD) : (W2 m ρ c (Proc.devRef .tc main_v1_0) : Cert.Spec.Mat) = Cert.Spec.fwd (argOf m c) := by
  refine (W2_main_v1_0 m ρ c).trans ((arrAt_fwd (V2 m ρ) c).trans ?_)
  funext i
  rw [matOf_V2, doutOf_V2]; rfl

/-- The reverse matrix at the end. -/
theorem final_rev (c : Dev nD) : (W2 m ρ c (Proc.devRef .tc main_v1_1) : Cert.Spec.Mat) = Cert.Spec.rev (argOf m c) := by
  refine (W2_main_v1_1 m ρ c).trans ((arrAt_rev (V2 m ρ) c).trans ?_)
  funext i
  rw [matOf_V2, dinOf_V2]; rfl

/-- The idealized kernel's run with its results named: both result arrays at the specification's matrices of the
    launch matrix, the matrix unchanged. -/
theorem run_value : θ_run defs (onTc (τ := τ) (main (F := Ideal))) ⟨m, fun _ => 0, ρ⟩ (fun r => ∀ c : Dev nD,
      r.2.mem ((c.tc : Thread nD τ).loc main_v1_0) = Cert.Spec.fwd (argOf m c)
      ∧ r.2.mem ((c.tc : Thread nD τ).loc main_v1_1) = Cert.Spec.rev (argOf m c)
      ∧ r.2.mem ((c.tc : Thread nD τ).loc main_arg0) = m ((c.tc : Thread nD τ).loc main_arg0)) :=
  (θ_run defs _ _).mono (fun _ h c =>
    ⟨(h c _ (mem_uc main_v1_0 (by decide))).trans (final_fwd m ρ c),
     (h c _ (mem_uc main_v1_1 (by decide))).trans (final_rev m ρ c),
     (h c _ (mem_uc main_arg0 (by decide))).trans (W2_main_arg0 m ρ c)⟩) (run_main m ρ)

end Cert.KernelIdeal.Val

end
-- ==== Proof.Ref.lean ====
/- The reference's two results, read index by index, are the specification's forward and reverse matrices. -/
import proofs.«155841_j19774029431556_1_alg».proof.Proof.Gen.ReferenceIdeal.Run
import proofs.«155841_j19774029431556_1_alg».proof.Proof.Gen.ReferenceIdeal.Read
import proofs.«155841_j19774029431556_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read
open scoped BigOperators

/-! ## The composed index maps of the reference's layout operations, at coordinates -/

/-- The transpose reads the mirrored entry. -/
theorem idx_v10 (p q : Fin 8192) : idx_main_v10 (ix2 p q) = ix2 q p :=
  funext fun a => Fin.ext (by match a with | ⟨0, _⟩ => rfl | ⟨1, _⟩ => rfl)

/-- Broadcasting a 1 × 8192 row down the rows reads the row at the column. -/
theorem idx_v12 (p q : Fin 8192) : idx_main_v12 (ix2 p q) = ix2 (0 : Fin 1) q :=
  funext fun a => Fin.ext (by match a with | ⟨0, _⟩ => rfl | ⟨1, _⟩ => rfl)
theorem idx_v15 (p q : Fin 8192) : idx_main_v15 (ix2 p q) = ix2 (0 : Fin 1) q :=
  funext fun a => Fin.ext (by match a with | ⟨0, _⟩ => rfl | ⟨1, _⟩ => rfl)

/-- A vector laid as a 1 × 8192 row is read at the column. -/
theorem idx_v11 (z : Fin 1) (q : Fin 8192) : idx_main_v11 (ix2 z q) = ix1 q :=
  funext fun a => Fin.ext (by match a with | ⟨0, _⟩ => rfl)
theorem idx_v14 (z : Fin 1) (q : Fin 8192) : idx_main_v14 (ix2 z q) = ix1 q :=
  funext fun a => Fin.ext (by match a with | ⟨0, _⟩ => rfl)

/-- The sum along a row runs over the row's entries, the sum along a column over the column's. -/
theorem idx_v0 (q k : Fin 8192) : idx_main_v0 (ix1 q) k = ix2 q k :=
  funext fun a => Fin.ext (by match a with | ⟨0, _⟩ => rfl | ⟨1, _⟩ => rfl)
theorem idx_v1 (q k : Fin 8192) : idx_main_v1 (ix1 q) k = ix2 k q :=
  funext fun a => Fin.ext (by match a with | ⟨0, _⟩ => rfl | ⟨1, _⟩ => rfl)

/-! ## The two results are the specification's -/

/-- forward[p, q] = A[q, p] · 1 / (Σ_j A[q, j] + ε): the reference's first result, index by index. -/
theorem ref_fwd (A : (⟨S8192x8192, .f32⟩ : BufTy).Contents (Elt Ideal)) :
    val_main_v13 (F := Ideal) A = Cert.Spec.fwd A := by
  funext i
  obtain ⟨p, q, rfl⟩ : ∃ (p : Fin 8192) (q : Fin 8192), i = ix2 p q := ⟨i 0, i 1, eq_ix2 i⟩
  rw [val_main_v13_apply, val_main_v10_apply, val_main_v12_apply, idx_v12, val_main_v11_apply, idx_v11,
    val_main_v5_apply, val_main_v4_apply, val_main_cst_2_apply, val_main_v3_apply, val_main_v0_apply,
    val_main_cst_apply, val_main_v2_apply, val_main_cst_1_apply, idx_v10]
  simp only [idx_v0, Ideal.hostDivf_def, Ideal.addf_def, Ideal.mulf_def, Ideal.ofBits_def, Ideal.ofBits_zero_f32, zero_add,
    Cert.Spec.fwd, Cert.Spec.dOut, Cert.Spec.rowSum, Cert.Spec.one, Cert.Spec.eps]

/-- reverse[p, q] = A[p, q] · 1 / (Σ_r A[r, q] + ε): the reference's second result, index by index. -/
theorem ref_rev (A : (⟨S8192x8192, .f32⟩ : BufTy).Contents (Elt Ideal)) :
    val_main_v16 (F := Ideal) A = Cert.Spec.rev A := by
  funext i
  obtain ⟨p, q, rfl⟩ : ∃ (p : Fin 8192) (q : Fin 8192), i = ix2 p q := ⟨i 0, i 1, eq_ix2 i⟩
  rw [val_main_v16_apply, val_main_v15_apply, idx_v15, val_main_v14_apply, idx_v14,
    val_main_v9_apply, val_main_v8_apply, val_main_cst_4_apply, val_main_v7_apply, val_main_v1_apply,
    val_main_cst_0_apply, val_main_v6_apply, val_main_cst_3_apply]
  simp only [idx_v1, Ideal.hostDivf_def, Ideal.addf_def, Ideal.mulf_def, Ideal.ofBits_def, Ideal.ofBits_zero_f32, zero_add,
    Cert.Spec.rev, Cert.Spec.dIn, Cert.Spec.colSum, Cert.Spec.one, Cert.Spec.eps]

/-! ## The same, on the composed terms the reference's run ends with -/

theorem run_fwd_eq (A : (⟨S8192x8192, .f32⟩ : BufTy).Contents (Elt Ideal)) :
    mulf (F := Ideal) (transpose S8192x8192 [1, 0] A transposes_S8192x8192_S8192x8192_1_0) (broadcastInDim S8192x8192 ![0, 1] bcast_S1x8192_S8192x8192_0_1 (broadcastInDim S1x8192 ![1] bcast_S8192_S1x8192_1 (Host.divf (broadcastInDim S8192 ![] bcast_S_S8192 (constant S_ .f32 0x3F800000#32)) (addf (Host.reduceAdd A (constant S_ .f32 0x00000000#32) reducesTo_S8192x8192_S8192_d1 h_S_) (broadcastInDim S8192 ![] bcast_S_S8192 (constant S_ .f32 0x322BCC77#32))))))
      = Cert.Spec.fwd A :=
  (val_main_v13_eq (F := Ideal) A).trans (ref_fwd A)

theorem run_rev_eq (A : (⟨S8192x8192, .f32⟩ : BufTy).Contents (Elt Ideal)) :
    mulf (F := Ideal) A (broadcastInDim S8192x8192 ![0, 1] bcast_S1x8192_S8192x8192_0_1 (broadcastInDim S1x8192 ![1] bcast_S8192_S1x8192_1 (Host.divf (broadcastInDim S8192 ![] bcast_S_S8192 (constant S_ .f32 0x3F800000#32)) (addf (Host.reduceAdd A (constant S_ .f32 0x00000000#32) reducesTo_S8192x8192_S8192_d0 h_S_) (broadcastInDim S8192 ![] bcast_S_S8192 (constant S_ .f32 0x322BCC77#32))))))
      = Cert.Spec.rev A :=
  (val_main_v16_eq (F := Ideal) A).trans (ref_rev A)

end Cert.ReferenceIdeal.RefValue

end
-- ==== Proof.lean ====
/-
  The certificate of the graph-shift kernel: two transition matrices of an adjacency matrix A (8192 × 8192),
      forward[p, q] = A[q, p] / (Σ_j A[q, j] + ε),      reverse[p, q] = A[p, q] / (Σ_r A[r, q] + ε),
  computed by two kernel passes — the reciprocal degrees (row sums band by band; column sums accumulated over the 32
  bands of 256 rows), then the two scalings tile by tile, the forward one of the transposed tile — against the same two
  formulas written with whole-array sums.

  * The three frames. The word-level program and its idealization run as two segments, one per pass, each pass
    between "every unscoped buffer at the boundary's contents" (K/MainRun.lean and KI/MainRun.lean: the same text at
    the two programs); the matrix is only read, so it ends as launched. The reference's frame is its run with the
    results dropped.
  * The idealization rewrote nothing, so it is preserved trivially.
  * Over the extended reals both programs end with the specification's two matrices of the launch matrix
    (Spec.lean): the kernel's by reading what each pass's write-backs leave (KI/Val0Out, Val0In, Val1, ValK), the
    reference's by reading its operations at an index (Ref.lean). The one law used is that a finite sum of extended
    reals may be regrouped (the column sums, band by band against all at once); no finiteness of A is needed.
-/
import proofs.«155841_j19774029431556_1_alg».proof.Defs
import proofs.«155841_j19774029431556_1_alg».proof.Proof.Gen.Kernel
import proofs.«155841_j19774029431556_1_alg».proof.Proof.Gen.KernelIdeal
import proofs.«155841_j19774029431556_1_alg».proof.Proof.Gen.ReferenceIdeal
import proofs.«155841_j19774029431556_1_alg».proof.Proof.Gen.Pre_finite_inputs
import proofs.«155841_j19774029431556_1_alg».proof.Proof.K.MainRun
import proofs.«155841_j19774029431556_1_alg».proof.Proof.KI.ValK
import proofs.«155841_j19774029431556_1_alg».proof.Proof.Ref
import Idealize.ShloMosaic.Adequacy
import Idealize.ShloMosaic.Init

noncomputable section

namespace Cert.Proof

open Idealize.ShloMosaic Idealize.ShloMosaic.TcCoe Idealize.SL.Sem

/-- The word-level program runs and leaves the matrix as launched. -/
theorem frame_k : Cert.frame_Kernel (hKernel := Cert.Kernel.Gen.facts) (hPre_finite_inputs := Cert.Pre_finite_inputs.Gen.facts) :=
  fun m ρ _ => Cert.Kernel.Frame.frame m ρ

/-- The idealized program runs and leaves the matrix as launched. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference runs and leaves the matrix as launched: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the matrix both idealized programs end with the specification's forward and reverse
    matrices of it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.fwd (Cert.KernelIdeal.Val.argOf m c), fun c => Cert.Spec.rev (Cert.KernelIdeal.Val.argOf m c),
    Cert.KernelIdeal.Val.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [hagree c]; exact Cert.ReferenceIdeal.RefValue.run_fwd_eq _
  · rw [hagree c]; exact Cert.ReferenceIdeal.RefValue.run_rev_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
